-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128 : Shape := ⟨4, ![8, 128, 128, 128]⟩
abbrev S8x128x128x2 : Shape := ⟨4, ![8, 128, 128, 2]⟩
abbrev S_ : Shape := ⟨0, ![]⟩

class Facts : Prop where
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  h_S_ : 0 < S_.numel
  bcast_S_S8x128x128x2 : S_.BroadcastsInDim S8x128x128x2 (![] : Fin 0 → Fin S8x128x128x2.rank)
  reducesTo_S8x128x128x2_S_d0_1_2_3 : S8x128x128x2.ReducesTo [0, 1, 2, 3] S_

variable [Facts]

def fn {F : FTy → Type} [FloatOps F] (main_arg0 : FVec F S8x128x128x128 .f32) (main_arg1 : FVec F S8x128x128x2 .f32) : IVec S_ 1 :=
  let main_v0 : FVec F S8x128x128x128 .f32 := Host.absf main_arg0
  let main_cst : FVec F S_ .f32 := constant S_ .f32 0x7F800000#32
  let main_v1 : FVec F S8x128x128x128 .f32 := broadcastInDim S8x128x128x128 ![] bcast_S_S8x128x128x128 main_cst
  let main_v2 : IVec S8x128x128x128 1 := cmpf .olt main_v0 main_v1
  let main_c : IVec S_ 1 := constantI S_ 1 1#1
  let main_v3 : IVec S_ 1 := (fun x v => Host.reduce IntOp.andi x v reducesTo_S8x128x128x128_S_d0_1_2_3 h_S_) main_v2 main_c
  let main_v4 : FVec F S8x128x128x2 .f32 := Host.absf main_arg1
  let main_cst_0 : FVec F S_ .f32 := constant S_ .f32 0x7F800000#32
  let main_v5 : FVec F S8x128x128x2 .f32 := broadcastInDim S8x128x128x2 ![] bcast_S_S8x128x128x2 main_cst_0
  let main_v6 : IVec S8x128x128x2 1 := cmpf .olt main_v4 main_v5
  let main_c_1 : IVec S_ 1 := constantI S_ 1 1#1
  let main_v7 : IVec S_ 1 := (fun x v => Host.reduce IntOp.andi x v reducesTo_S8x128x128x2_S_d0_1_2_3 h_S_) main_v6 main_c_1
  let main_v8 : IVec S_ 1 := andi main_v3 main_v7
  main_v8
-- ==== Kernel.lean ====
abbrev S8x128x128x128 : Shape := ⟨4, ![8, 128, 128, 128]⟩
abbrev S8x128x128x2 : Shape := ⟨4, ![8, 128, 128, 2]⟩
abbrev S8x128x128x1 : Shape := ⟨4, ![8, 128, 128, 1]⟩
abbrev S8x128x128 : Shape := ⟨3, ![8, 128, 128]⟩
abbrev S1x128x128x128 : Shape := ⟨4, ![1, 128, 128, 128]⟩
abbrev S1x16x128 : Shape := ⟨3, ![1, 16, 128]⟩
abbrev S1x128x16x128 : Shape := ⟨4, ![1, 128, 16, 128]⟩
abbrev S128x128x128 : Shape := ⟨3, ![128, 128, 128]⟩
abbrev S16384x128 : Shape := ⟨2, ![16384, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S1x128x128 : Shape := ⟨3, ![1, 128, 128]⟩
abbrev S1x128x1x128 : Shape := ⟨4, ![1, 128, 1, 128]⟩

abbrev nBuf : Space → Nat
  | .hbm => 7
  | .vmem => 9
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x2, .f32⟩
  | .hbm, ⟨2, _⟩ => ⟨S8x128x128x1, .f32⟩
  | .hbm, ⟨3, _⟩ => ⟨S8x128x128, .f32⟩
  | .hbm, ⟨4, _⟩ => ⟨S8x128x128x1, .f32⟩
  | .hbm, ⟨5, _⟩ => ⟨S8x128x128, .f32⟩
  | .hbm, ⟨6, _⟩ => ⟨S8x128x128x128, .f32⟩
  | .local _ .vmem, ⟨0, _⟩ => ⟨S1x128x128x128, .f32⟩
  | .local _ .vmem, ⟨1, _⟩ => ⟨S1x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x128x16x128, .f32⟩
  | .local _ .vmem, ⟨6, _⟩ => ⟨S1x128x16x128, .f32⟩
  | .local _ .vmem, ⟨7, _⟩ => ⟨S128x128x128, .f32⟩
  | .local _ .vmem, ⟨8, _⟩ => ⟨S16384x128, .bf16⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S1x128x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S8x128x128x2_S8x128x128x1_0_0_0_0 : S8x128x128x2.Slices ![0, 0, 0, 0] S8x128x128x1
  shapeCasts_S8x128x128x1_S8x128x128 : S8x128x128x1.ShapeCasts S8x128x128
  slices_S8x128x128x2_S8x128x128x1_0_0_0_1 : S8x128x128x2.Slices ![0, 0, 0, 1] S8x128x128x1
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  bitsLt_bf16_f32 : FTy.bits .bf16 < FTy.bits .f32
  shapeCasts_S128x128x128_S16384x128 : S128x128x128.ShapeCasts S16384x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  packedbf16_S16384x128_S16384x128_0_0 : (Rect.unit (s := S16384x128) ![0, 0] S16384x128.size inb_S16384x128_S16384x128_0_0).PackedRows (EltTy.packing .bf16)
  iota_S128x128_d0_w32 : S128x128.Iotas .tc 32 [0]
  inb_S1x16x128_S1x1x128_0_0_0 : ∀ a, (![0, 0, 0] : Fin 3 → Nat) a + S1x1x128.size a ≤ S1x16x128.size a
  h_S1x1x128 : 0 < S1x1x128.numel
  shapeCasts_S1x1x128_S128 : S1x1x128.ShapeCasts S128
  shapeCasts_S128_S1x128 : S128.ShapeCasts S1x128
  broadcasts_S1x128_S128x128 : S1x128.Broadcasts S128x128
  shapeCasts_S1x128_S1x128 : S1x128.ShapeCasts S1x128
  shapeCasts_S16384x128_S128x128x128 : S16384x128.ShapeCasts S128x128x128
  inb_S128x128x128_S128x128x128_0_0_0 : ∀ a, (![0, 0, 0] : Fin 3 → Nat) a + S128x128x128.size a ≤ S128x128x128.size a
  h_S128x128x128 : 0 < S128x128x128.numel
  shapeCasts_S128x128x128_S128x128x128 : S128x128x128.ShapeCasts S128x128x128
  shapeCasts_S128x128_S1x128x128 : S128x128.ShapeCasts S1x128x128
  broadcasts_S1x128x128_S128x128x128 : S1x128x128.Broadcasts S128x128x128
  reduces_S128x128x128_S128x128 : S128x128x128.Reduces [1] S128x128
  inb_S1x128x16x128_S1x128x1x128_0_0_0_0 : ∀ a, (![0, 0, 0, 0] : Fin 4 → Nat) a + S1x128x1x128.size a ≤ S1x128x16x128.size a
  h_S1x128x1x128 : 0 < S1x128x1x128.numel
  shapeCasts_S1x128x1x128_S128x128 : S1x128x1x128.ShapeCasts S128x128
  shapeCasts_S128x128_S1x128x1x128 : S128x128.ShapeCasts S1x128x1x128
  inb_S1x16x128_S1x1x128_0_1_0 : ∀ a, (![0, 1, 0] : Fin 3 → Nat) a + S1x1x128.size a ≤ S1x16x128.size a
  inb_S1x128x16x128_S1x128x1x128_0_0_1_0 : ∀ a, (![0, 0, 1, 0] : Fin 4 → Nat) a + S1x128x1x128.size a ≤ S1x128x16x128.size a
  inb_S1x16x128_S1x1x128_0_2_0 : ∀ a, (![0, 2, 0] : Fin 3 → Nat) a + S1x1x128.size a ≤ S1x16x128.size a
  inb_S1x128x16x128_S1x128x1x128_0_0_2_0 : ∀ a, (![0, 0, 2, 0] : Fin 4 → Nat) a + S1x128x1x128.size a ≤ S1x128x16x128.size a
  inb_S1x16x128_S1x1x128_0_3_0 : ∀ a, (![0, 3, 0] : Fin 3 → Nat) a + S1x1x128.size a ≤ S1x16x128.size a
  inb_S1x128x16x128_S1x128x1x128_0_0_3_0 : ∀ a, (![0, 0, 3, 0] : Fin 4 → Nat) a + S1x128x1x128.size a ≤ S1x128x16x128.size a
  inb_S1x16x128_S1x1x128_0_4_0 : ∀ a, (![0, 4, 0] : Fin 3 → Nat) a + S1x1x128.size a ≤ S1x16x128.size a
  inb_S1x128x16x128_S1x128x1x128_0_0_4_0 : ∀ a, (![0, 0, 4, 0] : Fin 4 → Nat) a + S1x128x1x128.size a ≤ S1x128x16x128.size a
  inb_S1x16x128_S1x1x128_0_5_0 : ∀ a, (![0, 5, 0] : Fin 3 → Nat) a + S1x1x128.size a ≤ S1x16x128.size a
  inb_S1x128x16x128_S1x128x1x128_0_0_5_0 : ∀ a, (![0, 0, 5, 0] : Fin 4 → Nat) a + S1x128x1x128.size a ≤ S1x128x16x128.size a
  inb_S1x16x128_S1x1x128_0_6_0 : ∀ a, (![0, 6, 0] : Fin 3 → Nat) a + S1x1x128.size a ≤ S1x16x128.size a
  inb_S1x128x16x128_S1x128x1x128_0_0_6_0 : ∀ a, (![0, 0, 6, 0] : Fin 4 → Nat) a + S1x128x1x128.size a ≤ S1x128x16x128.size a
  inb_S1x16x128_S1x1x128_0_7_0 : ∀ a, (![0, 7, 0] : Fin 3 → Nat) a + S1x1x128.size a ≤ S1x16x128.size a
  inb_S1x128x16x128_S1x128x1x128_0_0_7_0 : ∀ a, (![0, 0, 7, 0] : Fin 4 → Nat) a + S1x128x1x128.size a ≤ S1x128x16x128.size a
  inb_S1x16x128_S1x1x128_0_8_0 : ∀ a, (![0, 8, 0] : Fin 3 → Nat) a + S1x1x128.size a ≤ S1x16x128.size a
  inb_S1x128x16x128_S1x128x1x128_0_0_8_0 : ∀ a, (![0, 0, 8, 0] : Fin 4 → Nat) a + S1x128x1x128.size a ≤ S1x128x16x128.size a
  inb_S1x16x128_S1x1x128_0_9_0 : ∀ a, (![0, 9, 0] : Fin 3 → Nat) a + S1x1x128.size a ≤ S1x16x128.size a
  inb_S1x128x16x128_S1x128x1x128_0_0_9_0 : ∀ a, (![0, 0, 9, 0] : Fin 4 → Nat) a + S1x128x1x128.size a ≤ S1x128x16x128.size a
  inb_S1x16x128_S1x1x128_0_10_0 : ∀ a, (![0, 10, 0] : Fin 3 → Nat) a + S1x1x128.size a ≤ S1x16x128.size a
  inb_S1x128x16x128_S1x128x1x128_0_0_10_0 : ∀ a, (![0, 0, 10, 0] : Fin 4 → Nat) a + S1x128x1x128.size a ≤ S1x128x16x128.size a
  inb_S1x16x128_S1x1x128_0_11_0 : ∀ a, (![0, 11, 0] : Fin 3 → Nat) a + S1x1x128.size a ≤ S1x16x128.size a
  inb_S1x128x16x128_S1x128x1x128_0_0_11_0 : ∀ a, (![0, 0, 11, 0] : Fin 4 → Nat) a + S1x128x1x128.size a ≤ S1x128x16x128.size a
  inb_S1x16x128_S1x1x128_0_12_0 : ∀ a, (![0, 12, 0] : Fin 3 → Nat) a + S1x1x128.size a ≤ S1x16x128.size a
  inb_S1x128x16x128_S1x128x1x128_0_0_12_0 : ∀ a, (![0, 0, 12, 0] : Fin 4 → Nat) a + S1x128x1x128.size a ≤ S1x128x16x128.size a
  inb_S1x16x128_S1x1x128_0_13_0 : ∀ a, (![0, 13, 0] : Fin 3 → Nat) a + S1x1x128.size a ≤ S1x16x128.size a
  inb_S1x128x16x128_S1x128x1x128_0_0_13_0 : ∀ a, (![0, 0, 13, 0] : Fin 4 → Nat) a + S1x128x1x128.size a ≤ S1x128x16x128.size a
  inb_S1x16x128_S1x1x128_0_14_0 : ∀ a, (![0, 14, 0] : Fin 3 → Nat) a + S1x1x128.size a ≤ S1x16x128.size a
  inb_S1x128x16x128_S1x128x1x128_0_0_14_0 : ∀ a, (![0, 0, 14, 0] : Fin 4 → Nat) a + S1x128x1x128.size a ≤ S1x128x16x128.size a
  inb_S1x16x128_S1x1x128_0_15_0 : ∀ a, (![0, 15, 0] : Fin 3 → Nat) a + S1x1x128.size a ≤ S1x16x128.size a
  inb_S1x128x16x128_S1x128x1x128_0_0_15_0 : ∀ a, (![0, 0, 15, 0] : Fin 4 → Nat) a + S1x128x1x128.size a ≤ S1x128x16x128.size a
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S8x128x128x128.size a
  hwx0_0 : ∀ i : grid0.Coords, EltTy.bits .f32 = 32 ∨ (Rect.block (s := S8x128x128x128) S1x128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128.size a ≤ S8x128x128.size a
  hwx0_1 : ∀ i : grid0.Coords, EltTy.bits .f32 = 32 ∨ (Rect.block (s := S8x128x128) S1x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S8x128x128.size a
  hwx0_2 : ∀ i : grid0.Coords, EltTy.bits .f32 = 32 ∨ (Rect.block (s := S8x128x128) S1x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x16x128.size a ≤ S8x128x128x128.size a
  hwx0_3 : ∀ i : grid0.Coords, EltTy.bits .f32 = 32 ∨ (Rect.block (s := S8x128x128x128) S1x128x16x128.size (cc0_transform_3 i) (hinb0_3 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_arg0) S1x128x128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128x16x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x128x128 : Shape := ⟨4, ![8, 128, 128, 128]⟩
abbrev S8x128x128x2 : Shape := ⟨4, ![8, 128, 128, 2]⟩
abbrev S8x128x128x1 : Shape := ⟨4, ![8, 128, 128, 1]⟩
abbrev S8x128x128 : Shape := ⟨3, ![8, 128, 128]⟩
abbrev S_ : Shape := ⟨0, ![]⟩
abbrev S8x1x128x128 : Shape := ⟨4, ![8, 1, 128, 128]⟩

abbrev nBuf : Space → Nat
  | .hbm => 275
  | .vmem => 0
  | .smem => 0
  | _ => 0

abbrev hbmTy0_0 (i : Nat) : BufTy := match i % 128 with
  | 0 => ⟨S8x128x128x128, .f32⟩
  | 1 => ⟨S8x128x128x2, .f32⟩
  | 2 => ⟨S8x128x128x1, .f32⟩
  | 3 => ⟨S8x128x128, .f32⟩
  | 4 => ⟨S8x128x128x1, .f32⟩
  | 5 => ⟨S8x128x128, .f32⟩
  | 6 => ⟨S_, .f32⟩
  | 7 => ⟨S8x128x128, .f32⟩
  | 8 => ⟨S8x128x128, .f32⟩
  | 9 => ⟨S_, .f32⟩
  | 10 => ⟨S8x128x128, .f32⟩
  | 11 => ⟨S8x128x128, .f32⟩
  | 12 => ⟨S_, .f32⟩
  | 13 => ⟨S8x128x128, .f32⟩
  | 14 => ⟨S8x128x128, .f32⟩
  | 15 => ⟨S_, .f32⟩
  | 16 => ⟨S8x128x128, .f32⟩
  | 17 => ⟨S8x128x128, .f32⟩
  | 18 => ⟨S_, .f32⟩
  | 19 => ⟨S8x128x128, .f32⟩
  | 20 => ⟨S8x128x128, .f32⟩
  | 21 => ⟨S_, .f32⟩
  | 22 => ⟨S8x128x128, .f32⟩
  | 23 => ⟨S8x128x128, .f32⟩
  | 24 => ⟨S8x128x128, .f32⟩
  | 25 => ⟨S8x128x128, .f32⟩
  | 26 => ⟨S_, .f32⟩
  | 27 => ⟨S8x128x128, .f32⟩
  | 28 => ⟨S8x128x128, .f32⟩
  | 29 => ⟨S_, .f32⟩
  | 30 => ⟨S8x128x128, .f32⟩
  | 31 => ⟨S8x128x128, .f32⟩
  | 32 => ⟨S8x128x128, .f32⟩
  | 33 => ⟨S8x128x128, .f32⟩
  | 34 => ⟨S_, .f32⟩
  | 35 => ⟨S8x128x128, .f32⟩
  | 36 => ⟨S8x128x128, .f32⟩
  | 37 => ⟨S_, .f32⟩
  | 38 => ⟨S8x128x128, .f32⟩
  | 39 => ⟨S8x128x128, .f32⟩
  | 40 => ⟨S8x128x128, .i32⟩
  | 41 => ⟨S8x128x128, .i32⟩
  | 42 => ⟨S8x128x128, .i32⟩
  | 43 => ⟨S8x128x128, .i32⟩
  | 44 => ⟨S_, .i32⟩
  | 45 => ⟨S8x128x128, .i32⟩
  | 46 => ⟨S8x128x128, .i1⟩
  | 47 => ⟨S_, .i32⟩
  | 48 => ⟨S8x128x128, .i32⟩
  | 49 => ⟨S8x128x128, .i1⟩
  | 50 => ⟨S8x128x128, .i1⟩
  | 51 => ⟨S_, .i32⟩
  | 52 => ⟨S8x128x128, .i32⟩
  | 53 => ⟨S8x128x128, .i1⟩
  | 54 => ⟨S8x128x128, .i1⟩
  | 55 => ⟨S_, .i32⟩
  | 56 => ⟨S8x128x128, .i32⟩
  | 57 => ⟨S8x128x128, .i1⟩
  | 58 => ⟨S8x128x128, .i1⟩
  | 59 => ⟨S8x128x128, .f32⟩
  | 60 => ⟨S_, .i32⟩
  | 61 => ⟨S_, .i32⟩
  | 62 => ⟨S_, .i32⟩
  | 63 => ⟨S8x128x128, .i32⟩
  | 64 => ⟨S8x128x128, .i32⟩
  | 65 => ⟨S_, .i32⟩
  | 66 => ⟨S8x128x128, .i32⟩
  | 67 => ⟨S8x128x128, .i32⟩
  | 68 => ⟨S_, .i32⟩
  | 69 => ⟨S_, .i32⟩
  | 70 => ⟨S_, .i32⟩
  | 71 => ⟨S8x128x128, .i32⟩
  | 72 => ⟨S8x128x128, .i32⟩
  | 73 => ⟨S_, .i32⟩
  | 74 => ⟨S8x128x128, .i32⟩
  | 75 => ⟨S8x128x128, .i32⟩
  | 76 => ⟨S_, .i32⟩
  | 77 => ⟨S8x128x128, .i32⟩
  | 78 => ⟨S8x128x128, .i1⟩
  | 79 => ⟨S_, .i32⟩
  | 80 => ⟨S8x128x128, .i32⟩
  | 81 => ⟨S8x128x128, .i32⟩
  | 82 => ⟨S8x128x128, .i32⟩
  | 83 => ⟨S_, .i32⟩
  | 84 => ⟨S8x128x128, .i32⟩
  | 85 => ⟨S8x128x128, .i1⟩
  | 86 => ⟨S_, .i32⟩
  | 87 => ⟨S8x128x128, .i32⟩
  | 88 => ⟨S8x128x128, .i32⟩
  | 89 => ⟨S8x128x128, .i32⟩
  | 90 => ⟨S8x128x128x1, .i32⟩
  | 91 => ⟨S8x128x128x1, .i32⟩
  | 92 => ⟨S8x128x128x2, .i32⟩
  | 93 => ⟨S8x128x128x128, .f32⟩
  | 94 => ⟨S8x1x128x128, .f32⟩
  | 95 => ⟨S8x128x128x128, .f32⟩
  | 96 => ⟨S8x128x128x128, .f32⟩
  | 97 => ⟨S_, .i32⟩
  | 98 => ⟨S8x128x128, .i32⟩
  | 99 => ⟨S8x128x128, .i1⟩
  | 100 => ⟨S_, .i32⟩
  | 101 => ⟨S8x128x128, .i32⟩
  | 102 => ⟨S8x128x128, .i1⟩
  | 103 => ⟨S8x128x128, .i1⟩
  | 104 => ⟨S_, .i32⟩
  | 105 => ⟨S8x128x128, .i32⟩
  | 106 => ⟨S8x128x128, .i1⟩
  | 107 => ⟨S8x128x128, .i1⟩
  | 108 => ⟨S_, .i32⟩
  | 109 => ⟨S8x128x128, .i32⟩
  | 110 => ⟨S8x128x128, .i1⟩
  | 111 => ⟨S8x128x128, .i1⟩
  | 112 => ⟨S8x128x128, .f32⟩
  | 113 => ⟨S_, .i32⟩
  | 114 => ⟨S_, .i32⟩
  | 115 => ⟨S_, .i32⟩
  | 116 => ⟨S8x128x128, .i32⟩
  | 117 => ⟨S8x128x128, .i32⟩
  | 118 => ⟨S_, .i32⟩
  | 119 => ⟨S8x128x128, .i32⟩
  | 120 => ⟨S8x128x128, .i32⟩
  | 121 => ⟨S_, .i32⟩
  | 122 => ⟨S_, .i32⟩
  | 123 => ⟨S_, .i32⟩
  | 124 => ⟨S8x128x128, .i32⟩
  | 125 => ⟨S8x128x128, .i32⟩
  | 126 => ⟨S_, .i32⟩
  | 127 => ⟨S8x128x128, .i32⟩
  | _ => ⟨S8x128x128x128, .f32⟩

abbrev hbmTy0_1 (i : Nat) : BufTy := match i % 128 with
  | 0 => ⟨S8x128x128, .i32⟩
  | 1 => ⟨S_, .i32⟩
  | 2 => ⟨S8x128x128, .i32⟩
  | 3 => ⟨S8x128x128, .i1⟩
  | 4 => ⟨S_, .i32⟩
  | 5 => ⟨S8x128x128, .i32⟩
  | 6 => ⟨S8x128x128, .i32⟩
  | 7 => ⟨S8x128x128, .i32⟩
  | 8 => ⟨S_, .i32⟩
  | 9 => ⟨S8x128x128, .i32⟩
  | 10 => ⟨S8x128x128, .i1⟩
  | 11 => ⟨S_, .i32⟩
  | 12 => ⟨S8x128x128, .i32⟩
  | 13 => ⟨S8x128x128, .i32⟩
  | 14 => ⟨S8x128x128, .i32⟩
  | 15 => ⟨S8x128x128x1, .i32⟩
  | 16 => ⟨S8x128x128x1, .i32⟩
  | 17 => ⟨S8x128x128x2, .i32⟩
  | 18 => ⟨S8x128x128x128, .f32⟩
  | 19 => ⟨S8x1x128x128, .f32⟩
  | 20 => ⟨S8x128x128x128, .f32⟩
  | 21 => ⟨S8x128x128x128, .f32⟩
  | 22 => ⟨S_, .i32⟩
  | 23 => ⟨S8x128x128, .i32⟩
  | 24 => ⟨S8x128x128, .i1⟩
  | 25 => ⟨S_, .i32⟩
  | 26 => ⟨S8x128x128, .i32⟩
  | 27 => ⟨S8x128x128, .i1⟩
  | 28 => ⟨S8x128x128, .i1⟩
  | 29 => ⟨S_, .i32⟩
  | 30 => ⟨S8x128x128, .i32⟩
  | 31 => ⟨S8x128x128, .i1⟩
  | 32 => ⟨S8x128x128, .i1⟩
  | 33 => ⟨S_, .i32⟩
  | 34 => ⟨S8x128x128, .i32⟩
  | 35 => ⟨S8x128x128, .i1⟩
  | 36 => ⟨S8x128x128, .i1⟩
  | 37 => ⟨S8x128x128, .f32⟩
  | 38 => ⟨S_, .i32⟩
  | 39 => ⟨S_, .i32⟩
  | 40 => ⟨S_, .i32⟩
  | 41 => ⟨S8x128x128, .i32⟩
  | 42 => ⟨S8x128x128, .i32⟩
  | 43 => ⟨S_, .i32⟩
  | 44 => ⟨S8x128x128, .i32⟩
  | 45 => ⟨S8x128x128, .i32⟩
  | 46 => ⟨S_, .i32⟩
  | 47 => ⟨S_, .i32⟩
  | 48 => ⟨S_, .i32⟩
  | 49 => ⟨S8x128x128, .i32⟩
  | 50 => ⟨S8x128x128, .i32⟩
  | 51 => ⟨S_, .i32⟩
  | 52 => ⟨S8x128x128, .i32⟩
  | 53 => ⟨S8x128x128, .i32⟩
  | 54 => ⟨S_, .i32⟩
  | 55 => ⟨S8x128x128, .i32⟩
  | 56 => ⟨S8x128x128, .i1⟩
  | 57 => ⟨S_, .i32⟩
  | 58 => ⟨S8x128x128, .i32⟩
  | 59 => ⟨S8x128x128, .i32⟩
  | 60 => ⟨S8x128x128, .i32⟩
  | 61 => ⟨S_, .i32⟩
  | 62 => ⟨S8x128x128, .i32⟩
  | 63 => ⟨S8x128x128, .i1⟩
  | 64 => ⟨S_, .i32⟩
  | 65 => ⟨S8x128x128, .i32⟩
  | 66 => ⟨S8x128x128, .i32⟩
  | 67 => ⟨S8x128x128, .i32⟩
  | 68 => ⟨S8x128x128x1, .i32⟩
  | 69 => ⟨S8x128x128x1, .i32⟩
  | 70 => ⟨S8x128x128x2, .i32⟩
  | 71 => ⟨S8x128x128x128, .f32⟩
  | 72 => ⟨S8x1x128x128, .f32⟩
  | 73 => ⟨S8x128x128x128, .f32⟩
  | 74 => ⟨S8x128x128x128, .f32⟩
  | 75 => ⟨S_, .i32⟩
  | 76 => ⟨S8x128x128, .i32⟩
  | 77 => ⟨S8x128x128, .i1⟩
  | 78 => ⟨S_, .i32⟩
  | 79 => ⟨S8x128x128, .i32⟩
  | 80 => ⟨S8x128x128, .i1⟩
  | 81 => ⟨S8x128x128, .i1⟩
  | 82 => ⟨S_, .i32⟩
  | 83 => ⟨S8x128x128, .i32⟩
  | 84 => ⟨S8x128x128, .i1⟩
  | 85 => ⟨S8x128x128, .i1⟩
  | 86 => ⟨S_, .i32⟩
  | 87 => ⟨S8x128x128, .i32⟩
  | 88 => ⟨S8x128x128, .i1⟩
  | 89 => ⟨S8x128x128, .i1⟩
  | 90 => ⟨S8x128x128, .f32⟩
  | 91 => ⟨S_, .i32⟩
  | 92 => ⟨S_, .i32⟩
  | 93 => ⟨S_, .i32⟩
  | 94 => ⟨S8x128x128, .i32⟩
  | 95 => ⟨S8x128x128, .i32⟩
  | 96 => ⟨S_, .i32⟩
  | 97 => ⟨S8x128x128, .i32⟩
  | 98 => ⟨S8x128x128, .i32⟩
  | 99 => ⟨S_, .i32⟩
  | 100 => ⟨S_, .i32⟩
  | 101 => ⟨S_, .i32⟩
  | 102 => ⟨S8x128x128, .i32⟩
  | 103 => ⟨S8x128x128, .i32⟩
  | 104 => ⟨S_, .i32⟩
  | 105 => ⟨S8x128x128, .i32⟩
  | 106 => ⟨S8x128x128, .i32⟩
  | 107 => ⟨S_, .i32⟩
  | 108 => ⟨S8x128x128, .i32⟩
  | 109 => ⟨S8x128x128, .i1⟩
  | 110 => ⟨S_, .i32⟩
  | 111 => ⟨S8x128x128, .i32⟩
  | 112 => ⟨S8x128x128, .i32⟩
  | 113 => ⟨S8x128x128, .i32⟩
  | 114 => ⟨S_, .i32⟩
  | 115 => ⟨S8x128x128, .i32⟩
  | 116 => ⟨S8x128x128, .i1⟩
  | 117 => ⟨S_, .i32⟩
  | 118 => ⟨S8x128x128, .i32⟩
  | 119 => ⟨S8x128x128, .i32⟩
  | 120 => ⟨S8x128x128, .i32⟩
  | 121 => ⟨S8x128x128x1, .i32⟩
  | 122 => ⟨S8x128x128x1, .i32⟩
  | 123 => ⟨S8x128x128x2, .i32⟩
  | 124 => ⟨S8x128x128x128, .f32⟩
  | 125 => ⟨S8x1x128x128, .f32⟩
  | 126 => ⟨S8x128x128x128, .f32⟩
  | 127 => ⟨S8x128x128x128, .f32⟩
  | _ => ⟨S8x128x128x128, .f32⟩

abbrev hbmTy0_2 (i : Nat) : BufTy := match i % 128 with
  | 0 => ⟨S8x128x128, .f32⟩
  | 1 => ⟨S8x1x128x128, .f32⟩
  | 2 => ⟨S8x128x128x128, .f32⟩
  | 3 => ⟨S8x128x128x128, .f32⟩
  | 4 => ⟨S8x128x128, .f32⟩
  | 5 => ⟨S8x1x128x128, .f32⟩
  | 6 => ⟨S8x128x128x128, .f32⟩
  | 7 => ⟨S8x128x128x128, .f32⟩
  | 8 => ⟨S8x128x128x128, .f32⟩
  | 9 => ⟨S8x128x128, .f32⟩
  | 10 => ⟨S8x1x128x128, .f32⟩
  | 11 => ⟨S8x128x128x128, .f32⟩
  | 12 => ⟨S8x128x128x128, .f32⟩
  | 13 => ⟨S8x128x128x128, .f32⟩
  | 14 => ⟨S8x128x128, .f32⟩
  | 15 => ⟨S8x1x128x128, .f32⟩
  | 16 => ⟨S8x128x128x128, .f32⟩
  | 17 => ⟨S8x128x128x128, .f32⟩
  | 18 => ⟨S8x128x128x128, .f32⟩
  | _ => ⟨S8x128x128x128, .f32⟩

abbrev hbmTy (i : Nat) : BufTy := match i / 128 with
  | 0 => hbmTy0_0 i
  | 1 => hbmTy0_1 i
  | 2 => hbmTy0_2 i
  | _ => ⟨S8x128x128x128, .f32⟩

abbrev bufTy : (tb : Table) → Fin (tcTables nBuf tb) → BufTy
  | .hbm, ⟨i, _⟩ => hbmTy i
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_v32 : Ref sig .tc := ⟨.hbm, 45, rfl⟩
abbrev main_v33 : Ref sig .tc := ⟨.hbm, 46, rfl⟩
abbrev main_c_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_11 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_12 : Ref sig .tc := ⟨.hbm, 60, rfl⟩
abbrev main_c_13 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v44 : Ref sig .tc := ⟨.hbm, 67, rfl⟩
abbrev main_c_14 : Ref sig .tc := ⟨.hbm, 68, rfl⟩
abbrev main_c_15 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v45 : Ref sig .tc := ⟨.hbm, 75, rfl⟩
abbrev main_c_16 : Ref sig .tc := ⟨.hbm, 76, rfl⟩
abbrev main_v46 : Ref sig .tc := ⟨.hbm, 77, rfl⟩
abbrev main_v47 : Ref sig .tc := ⟨.hbm, 78, rfl⟩
abbrev main_c_17 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_18 : Ref sig .tc := ⟨.hbm, 83, rfl⟩
abbrev main_v51 : Ref sig .tc := ⟨.hbm, 84, rfl⟩
abbrev main_v52 : Ref sig .tc := ⟨.hbm, 85, rfl⟩
abbrev main_c_19 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_20 : Ref sig .tc := ⟨.hbm, 97, rfl⟩
abbrev main_v63 : Ref sig .tc := ⟨.hbm, 98, rfl⟩
abbrev main_v64 : Ref sig .tc := ⟨.hbm, 99, rfl⟩
abbrev main_c_21 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_22 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_23 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_24 : Ref sig .tc := ⟨.hbm, 113, rfl⟩
abbrev main_c_25 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_v75 : Ref sig .tc := ⟨.hbm, 120, rfl⟩
abbrev main_c_26 : Ref sig .tc := ⟨.hbm, 121, rfl⟩
abbrev main_c_27 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_v76 : Ref sig .tc := ⟨.hbm, 128, rfl⟩
abbrev main_c_28 : Ref sig .tc := ⟨.hbm, 129, rfl⟩
abbrev main_v77 : Ref sig .tc := ⟨.hbm, 130, rfl⟩
abbrev main_v78 : Ref sig .tc := ⟨.hbm, 131, rfl⟩
abbrev main_c_29 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_30 : Ref sig .tc := ⟨.hbm, 136, rfl⟩
abbrev main_v82 : Ref sig .tc := ⟨.hbm, 137, rfl⟩
abbrev main_v83 : Ref sig .tc := ⟨.hbm, 138, rfl⟩
abbrev main_c_31 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_c_32 : Ref sig .tc := ⟨.hbm, 150, rfl⟩
abbrev main_v94 : Ref sig .tc := ⟨.hbm, 151, rfl⟩
abbrev main_v95 : Ref sig .tc := ⟨.hbm, 152, rfl⟩
abbrev main_c_33 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_c_34 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_c_35 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_c_36 : Ref sig .tc := ⟨.hbm, 166, rfl⟩
abbrev main_c_37 : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_v106 : Ref sig .tc := ⟨.hbm, 173, rfl⟩
abbrev main_c_38 : Ref sig .tc := ⟨.hbm, 174, rfl⟩
abbrev main_c_39 : Ref sig .tc := ⟨.hbm, 175, rfl⟩
abbrev main_call5_v0 : Ref sig .tc := ⟨.hbm, 176, rfl⟩
abbrev main_call5_v1 : Ref sig .tc := ⟨.hbm, 177, rfl⟩
abbrev main_call5_v2 : Ref sig .tc := ⟨.hbm, 178, rfl⟩
abbrev main_call5_v3 : Ref sig .tc := ⟨.hbm, 179, rfl⟩
abbrev main_call5_v4 : Ref sig .tc := ⟨.hbm, 180, rfl⟩
abbrev main_v107 : Ref sig .tc := ⟨.hbm, 181, rfl⟩
abbrev main_c_40 : Ref sig .tc := ⟨.hbm, 182, rfl⟩
abbrev main_v108 : Ref sig .tc := ⟨.hbm, 183, rfl⟩
abbrev main_v109 : Ref sig .tc := ⟨.hbm, 184, rfl⟩
abbrev main_c_41 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_c_42 : Ref sig .tc := ⟨.hbm, 189, rfl⟩
abbrev main_v113 : Ref sig .tc := ⟨.hbm, 190, rfl⟩
abbrev main_v114 : Ref sig .tc := ⟨.hbm, 191, rfl⟩
abbrev main_c_43 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_c_44 : Ref sig .tc := ⟨.hbm, 203, rfl⟩
abbrev main_v125 : Ref sig .tc := ⟨.hbm, 204, rfl⟩
abbrev main_v126 : Ref sig .tc := ⟨.hbm, 205, rfl⟩
abbrev main_c_45 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_c_46 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_c_47 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_c_48 : Ref sig .tc := ⟨.hbm, 219, rfl⟩
abbrev main_c_49 : Ref sig .tc := ⟨.hbm, 220, rfl⟩
abbrev main_call6_v0 : Ref sig .tc := ⟨.hbm, 221, rfl⟩
abbrev main_call6_v1 : Ref sig .tc := ⟨.hbm, 222, rfl⟩
abbrev main_call6_v2 : Ref sig .tc := ⟨.hbm, 223, rfl⟩
abbrev main_call6_v3 : Ref sig .tc := ⟨.hbm, 224, rfl⟩
abbrev main_call6_v4 : Ref sig .tc := ⟨.hbm, 225, rfl⟩
abbrev main_v137 : Ref sig .tc := ⟨.hbm, 226, rfl⟩
abbrev main_c_50 : Ref sig .tc := ⟨.hbm, 227, rfl⟩
abbrev main_c_51 : Ref sig .tc := ⟨.hbm, 228, rfl⟩
abbrev main_call7_v0 : Ref sig .tc := ⟨.hbm, 229, rfl⟩
abbrev main_call7_v1 : Ref sig .tc := ⟨.hbm, 230, rfl⟩
abbrev main_call7_v2 : Ref sig .tc := ⟨.hbm, 231, rfl⟩
abbrev main_call7_v3 : Ref sig .tc := ⟨.hbm, 232, rfl⟩
abbrev main_call7_v4 : Ref sig .tc := ⟨.hbm, 233, rfl⟩
abbrev main_v138 : Ref sig .tc := ⟨.hbm, 234, rfl⟩
abbrev main_c_52 : Ref sig .tc := ⟨.hbm, 235, rfl⟩
abbrev main_v139 : Ref sig .tc := ⟨.hbm, 236, rfl⟩
abbrev main_v140 : Ref sig .tc := ⟨.hbm, 237, rfl⟩
abbrev main_c_53 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_c_54 : Ref sig .tc := ⟨.hbm, 242, rfl⟩
abbrev main_v144 : Ref sig .tc := ⟨.hbm, 243, rfl⟩
abbrev main_v145 : Ref sig .tc := ⟨.hbm, 244, rfl⟩
abbrev main_c_55 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩

abbrev nD : Nat := 1
abbrev τ : Topo := Topo.v7x

variable {F : FTy → Type} [FloatOps F]

class Facts₀ : Prop where
  slices_S8x128x128x2_S8x128x128x1_0_0_0_0 : S8x128x128x2.Slices ![0, 0, 0, 0] S8x128x128x1
  shapeCasts_S8x128x128x1_S8x128x128 : S8x128x128x1.ShapeCasts S8x128x128
  slices_S8x128x128x2_S8x128x128x1_0_0_0_1 : S8x128x128x2.Slices ![0, 0, 0, 1] S8x128x128x1
  bcast_S_S8x128x128 : S_.BroadcastsInDim S8x128x128 (![] : Fin 0 → Fin S8x128x128.rank)
  bcast_S8x128x128_S8x128x128x1_0_1_2 : S8x128x128.BroadcastsInDim S8x128x128x1 (![0, 1, 2] : Fin 3 → Fin S8x128x128x1.rank)
  concatenates_S8x128x128x1_S8x128x128x1_S8x128x128x2_d3 : Shape.Concatenates [S8x128x128x1, S8x128x128x1] S8x128x128x2 3
  bcast_S8x128x128_S8x1x128x128_0_2_3 : S8x128x128.BroadcastsInDim S8x1x128x128 (![0, 2, 3] : Fin 3 → Fin S8x1x128x128.rank)
  bcast_S8x1x128x128_S8x128x128x128_0_1_2_3 : S8x1x128x128.BroadcastsInDim S8x128x128x128 (![0, 1, 2, 3] : Fin 4 → Fin S8x128x128x128.rank)
  gather_S8x128x128x128_S8x128x128x2_S8x128x128x128_1_23_0_0_23_3_112811_wf : GatherDims.WF S8x128x128x128 S8x128x128x2 S8x128x128x128 [1] [2, 3] [0] [2, 3] [0] 3 ![1, 128, 1, 1]

variable [Facts₀]

def gather_S8x128x128x128_S8x128x128x2_S8x128x128x128_1_23_0_0_23_3_112811 : GatherDims S8x128x128x128 S8x128x128x2 S8x128x128x128 where
  offsetDims := [1]
  collapsedSliceDims := [2, 3]
  operandBatchingDims := [0]
  startIndicesBatchingDims := [0]
  startIndexMap := [2, 3]
  indexVectorDim := 3
  sliceSizes := ![1, 128, 1, 1]
  wf := gather_S8x128x128x128_S8x128x128x2_S8x128x128x128_1_23_0_0_23_3_112811_wf

class Facts : Prop extends Facts₀ where

variable [Facts]
-- ==== Proof.KernelRow.lean ====
/-
  One output row of the sampling kernel as a function of the image block and of that row's two
  coordinate vectors, at any float instance.

  The kernel body computes sixteen output rows, one after the other, each by the same chain of
  operations: from the row's x-coordinates the 128 x 128 column-tap matrix (one column per output
  position, a neighbour's weight where the row index equals the neighbour), from its y-coordinates
  the row-tap matrix; the image block, flattened to 16384 x 128, times the column taps; the product,
  reshaped to 128 x 128 x 128, times the row taps broadcast over the channels and summed over the
  image rows. `rowFn` is that chain, spelt with the payload terms of the body's first row.
-/
import proofs.«155408_j54039278519070_1_alg».proof.Proof.Gen.KernelIdeal.Skeleton

noncomputable section

namespace Cert.KernelIdeal.RowValue

open Idealize.ShloMosaic Cert.KernelIdeal Cert.KernelIdeal.Gen

variable {F : FTy → Type} [FloatOps F]

/-- The row index along axis 0 of a 128 x 128 matrix, as 32-bit words: what the taps are compared with. -/
abbrev rowIota : IVec S128x128 32 := iota .tc S128x128 32 [0] iota_S128x128_d0_w32

/-- One output row `[1, 128, 1, 128]` (channel, output position) from the image block `x0 : [1, 128, 128, 128]`
    and the row's coordinate vectors `gxr`, `gyr : [1, 1, 128]`. -/
def rowFn (x0 : Vec F S1x128x128x128 .f32) (gxr gyr : Vec F S1x1x128 .f32) : FVec F S1x128x1x128 .f32 :=
  k0_pay13
    (k0_pay11 rowIota (k0_pay5 gyr) (k0_pay7 gyr) (k0_pay9 gyr) (Scalar.ofBits .f32 0x3F800000#32))
    (k0_pay12 rowIota (k0_pay4 gxr) (k0_pay6 gxr) (k0_pay8 gxr) (k0_pay10 gxr) (k0_pay1 x0))

end Cert.KernelIdeal.RowValue

end
-- ==== Proof.SampleSpec.lean ====
/-
  Bilinear sampling of a 128 x 128 image at one normalized grid coordinate pair, written two ways
  over the extended reals, and the law that the two agree on finite data.

  A normalized coordinate `g` is unnormalized to the pixel coordinate `pix g = ((g + 1) / 2) * 127`;
  its two neighbours are the integers `lo g = ⌊pix g⌋` and `hi g = ⌊pix g⌋ + 1` (as 32-bit words),
  with weights `wLo g = 1 - (pix g - ⌊pix g⌋)` and `wHi g = pix g - ⌊pix g⌋`.

  * The SEPARABLE spelling (`sepTerm`) contracts the image first along its columns and then along its
    rows with the tap vector `taps g j = [j = lo g] * wLo g + [j = hi g] * wHi g`: a neighbour outside
    `0 … 127` meets no index and drops out by itself.
  * The FOUR-CORNER spelling (`cornerTerm`) reads the image at the four clipped neighbour pairs, zeroes a
    corner whose neighbour pair is out of range by a 0/1 mask, and adds the four weighted corners.
-/
import Idealize.ShloMosaic.PureOps.Ideal
import Idealize.ShloMosaic.PureOps.Ideal.Laws
import Idealize.ShloMosaic.Lib.ValueIdx

noncomputable section

namespace GridSample

open Idealize.ShloMosaic

/-! ## The coordinate, its neighbours and their weights -/

/-- The constants the two programs share, as the extended reals their words denote. -/
abbrev one : EReal := Ideal.ofBits .f32 0x3F800000#32
abbrev half : EReal := Ideal.ofBits .f32 0x3F000000#32
abbrev c127 : EReal := Ideal.ofBits .f32 0x42FE0000#32
abbrev zero : EReal := Ideal.ofBits .f32 0x00000000#32

/-- The pixel coordinate of a normalized coordinate. -/
def pix (g : EReal) : EReal := ((g + one) * half) * c127
/-- Its floor. -/
def fl (g : EReal) : EReal := Ideal.liftRound Int.floor (pix g)
/-- The lower and the upper neighbour, as 32-bit words. -/
def lo (g : EReal) : BitVec 32 := Ideal.fptosi 32 (fl g)
def hi (g : EReal) : BitVec 32 := Ideal.fptosi 32 (fl g + one)
/-- The weight of the upper neighbour, and of the lower one. -/
def wHi (g : EReal) : EReal := pix g - fl g
def wLo (g : EReal) : EReal := one - wHi g

/-! ## The separable spelling -/

/-- One tap: weight `w` at the index whose word is `k`, zero elsewhere. -/
def tap (k : BitVec 32) (w : EReal) (j : Fin 128) : EReal :=
  Scalar.select (IntOp.cmpi .eq (BitVec.ofNat 32 j.val) k) w zero
/-- The tap vector of a coordinate: its two neighbours with their weights. -/
def taps (g : EReal) (j : Fin 128) : EReal := tap (lo g) (wLo g) j + tap (hi g) (wHi g) j

/-- The image `s` (row, column) contracted along its columns with the taps of `gx`, then along its rows
    with the taps of `gy`. -/
def sepTerm (s : Fin 128 → Fin 128 → EReal) (gx gy : EReal) : EReal :=
  ∑ h : Fin 128, (∑ w : Fin 128, s h w * taps gx w) * taps gy h

/-! ## The four-corner spelling -/

/-- Both neighbours lie in `0 … 127` (signed), as a 0/1 word: the row neighbour's two tests, then the
    column neighbour's. -/
def inb (ky kx : BitVec 32) : BitVec 1 :=
  IntOp.andi (IntOp.andi (IntOp.andi (IntOp.cmpi .sge ky 0#32) (IntOp.cmpi .sle ky 127#32))
    (IntOp.cmpi .sge kx 0#32)) (IntOp.cmpi .sle kx 127#32)
/-- A word clipped into `0 … 127` (signed). -/
def clip (k : BitVec 32) : BitVec 32 := IntOp.minsi 127#32 (IntOp.maxsi 0#32 k)
/-- A negative index counted from the end (never taken on a clipped word). -/
def wrapNeg (k : BitVec 32) : BitVec 32 := Scalar.select (IntOp.cmpi .slt k 0#32) (IntOp.addi k 128#32) k
/-- The position a start index word names on an axis of extent 128: read signed, clamped into the axis. -/
def pos (k : BitVec 32) : Fin 128 := ⟨min k.toInt.toNat 127, by omega⟩

/-- One corner: the image at the clipped neighbour pair, times the 0/1 mask of the unclipped pair. -/
def corner (s : Fin 128 → Fin 128 → EReal) (ky kx : BitVec 32) : EReal :=
  s (pos (wrapNeg (clip ky))) (pos (wrapNeg (clip kx))) * (((inb ky kx).toNat : ℝ) : EReal)

/-- The four weighted corners, added in the order (lo, lo), (lo, hi), (hi, lo), (hi, hi) of (row, column). -/
def cornerTerm (s : Fin 128 → Fin 128 → EReal) (gx gy : EReal) : EReal :=
  ((corner s (lo gy) (lo gx) * (wLo gy * wLo gx) + corner s (lo gy) (hi gx) * (wLo gy * wHi gx))
    + corner s (hi gy) (lo gx) * (wHi gy * wLo gx)) + corner s (hi gy) (hi gx) * (wHi gy * wHi gx)

end GridSample

end
-- ==== Proof.RowAtIndex.lean ====
/-
  One output row of the kernel read at an index at the extended reals: the separable spelling of bilinear
  sampling.

  The row function is a chain of pointwise operations, layout operations, one matrix product and one lane sum.
  Read at the index (0, c, 0, wo): the layout operations each read their operand at one index (the flattening
  [128, 128, 128] -> [16384, 128] puts image row h of channel c on row c * 128 + h); the pointwise operations
  at the extended reals are the arithmetic of the coordinate's pixel position, floor, neighbours and weights;
  the comparison of the row index with a neighbour word, selected against zero, is one tap; the product with
  the column-tap matrix is the sum over the image columns, and the lane sum after the product with the
  row-tap matrix is the sum over the image rows.
-/
import proofs.«155408_j54039278519070_1_alg».proof.Proof.KernelRow
import proofs.«155408_j54039278519070_1_alg».proof.Proof.Gen.KernelIdeal
import proofs.«155408_j54039278519070_1_alg».proof.Proof.SampleSpec
import Idealize.ShloMosaic.Lib.Pipeline.Value
import Idealize.ShloMosaic.Lib.ValueLayout

noncomputable section

namespace Cert.KernelIdeal.RowValue

open Idealize.ShloMosaic Idealize.ShloMosaic.ValueIdx Cert.KernelIdeal Cert.KernelIdeal.Gen

section Layout
variable {α : Type}

/-- The row of the flattened image block that holds image row `h` of channel `c`. -/
def rowOf (c h : Fin 128) : Fin 16384 := ⟨c.val * 128 + h.val, by omega⟩

/-- A `[1, 1, 128]` array cast to `[128]` reads, at `i`, the operand at `(0, 0, i)`. -/
theorem shapeCast_11a_a_apply (x : S1x1x128.Idx → α) (h : S1x1x128.ShapeCasts S128) (i : Fin 128) :
    shapeCast S128 x h (ix1 i) = x (ix3 (0 : Fin 1) (0 : Fin 1) i) :=
  shapeCast_apply x h _ _ (by
    rw [Shape.rowMajor_val_three, Shape.rowMajor_val_one]
    show (0 * 1 + 0) * 128 + i.val = i.val
    omega)

/-- A `[128, 128, 128]` array cast to `[16384, 128]` reads, at `(c * 128 + h, w)`, the operand at `(c, h, w)`. -/
theorem shapeCast_flatten_apply (x : S128x128x128.Idx → α) (hc : S128x128x128.ShapeCasts S16384x128) (c h w : Fin 128) :
    shapeCast S16384x128 x hc (ix2 (rowOf c h) w) = x (ix3 c h w) :=
  shapeCast_apply x hc _ _ (by
    rw [Shape.rowMajor_val_three, Shape.rowMajor_val_two]
    show (c.val * 128 + h.val) * 128 + w.val = (c.val * 128 + h.val) * 128 + w.val
    rfl)

/-- A `[16384, 128]` array cast to `[128, 128, 128]` reads, at `(c, h, w)`, the operand at `(c * 128 + h, w)`. -/
theorem shapeCast_unflatten_apply (x : S16384x128.Idx → α) (hc : S16384x128.ShapeCasts S128x128x128) (c h w : Fin 128) :
    shapeCast S128x128x128 x hc (ix3 c h w) = x (ix2 (rowOf c h) w) :=
  shapeCast_apply x hc _ _ (by
    rw [Shape.rowMajor_val_three, Shape.rowMajor_val_two]
    show (c.val * 128 + h.val) * 128 + w.val = (c.val * 128 + h.val) * 128 + w.val
    rfl)

/-- A `[128, 128]` array cast to `[1, 128, 1, 128]` reads, at `(0, c, 0, w)`, the operand at `(c, w)`. -/
theorem shapeCast_ab_1a1b_apply (x : S128x128.Idx → α) (hc : S128x128.ShapeCasts S1x128x1x128) (u v : Fin 1) (c w : Fin 128) :
    shapeCast S1x128x1x128 x hc (ix4 u c v w) = x (ix2 c w) :=
  shapeCast_apply x hc _ _ (by
    have hu : u.val = 0 := by omega
    have hv : v.val = 0 := by omega
    rw [Shape.rowMajor_val_four, Shape.rowMajor_val_two]
    show c.val * 128 + w.val = ((u.val * 128 + c.val) * 1 + v.val) * 128 + w.val
    rw [hu, hv]; omega)

/-- A `[1, 128, 128]` array broadcast to `[128, 128, 128]` reads, at `(c, h, w)`, the operand at `(0, h, w)`. -/
theorem broadcastTo_1bc_abc_apply (x : S1x128x128.Idx → α) (hb : S1x128x128.Broadcasts S128x128x128) (c h w : Fin 128) :
    broadcastTo S128x128x128 x hb (ix3 c h w) = x (ix3 (0 : Fin 1) h w) := by
  refine broadcastTo_apply x hb (ix3 c h w) (ix3 (0 : Fin 1) h w) fun ax => ?_
  match ax with
  | ⟨0, _⟩ => rfl
  | ⟨1, _⟩ => rfl
  | ⟨2, _⟩ => rfl

/-- The row index of a `128 x 128` matrix, as a word. -/
theorem rowIota_apply (j w : Fin 128) : rowIota (ix2 j w) = BitVec.ofNat 32 j.val := by
  show BitVec.ofNat 32 (0 * 128 + j.val) = _
  rw [Nat.zero_mul, Nat.zero_add]

end Layout

section Sums

/-- A lane sum over axis 1 of a `[128, 128, 128]` array, read at `(c, w)`: the sum over the middle coordinate. -/
theorem laneSum_apply (src : FVec Ideal S128x128x128 .f32) (hr : S128x128x128.Reduces [1] S128x128)
    (hφ : FKind.Formats .f32) (hacc : (0x00000000#32 : BitVec 32) = FKind.add.neutral .f32 hφ) (c w : Fin 128) :
    multiReduction (F := Ideal) .add [1] S128x128 src 0x00000000#32 hr hφ hacc (ix2 c w)
      = ∑ h : Fin 128, src (ix3 c h w) := by
  refine (Ideal.multiReduction_add_single src 0x00000000#32 hr hφ hacc (ix2 c w)).trans ?_
  refine Finset.sum_congr rfl fun h _ => congrArg src ?_
  funext ax
  match ax with
  | ⟨0, _⟩ => rfl
  | ⟨1, _⟩ => rfl
  | ⟨2, _⟩ => rfl

end Sums

section Matmul

/-- The left operand's index of the flattened-image product on its kept axis: the output row. -/
theorem lhs_dot_0 (j : S16384x128.Idx) (k : dot_S16384x128_S128x128_S16384x128_1_0_0_1_n_n.contr.Idx) :
    (dot_S16384x128_S128x128_S16384x128_1_0_0_1_n_n.lhsIdx j k 0).val = (j 0).val := by
  unfold DotDims.lhsIdx
  rw [dif_neg (show ¬(0 : Fin S16384x128.rank) ∈ dot_S16384x128_S128x128_S16384x128_1_0_0_1_n_n.lhsBatch by decide),
    dif_pos (show (0 : Fin S16384x128.rank) ∈ dot_S16384x128_S128x128_S16384x128_1_0_0_1_n_n.lhsNonContracting by decide)]
  rfl

/-- On its contracted axis: the contraction coordinate. -/
theorem lhs_dot_1 (j : S16384x128.Idx) (k : dot_S16384x128_S128x128_S16384x128_1_0_0_1_n_n.contr.Idx) :
    (dot_S16384x128_S128x128_S16384x128_1_0_0_1_n_n.lhsIdx j k 1).val = (k ⟨0, Nat.one_pos⟩).val :=
  DotDims.lhsIdx_val_of_single (d := dot_S16384x128_S128x128_S16384x128_1_0_0_1_n_n) (cl := 1) rfl j k

/-- The right operand's index on its contracted axis: the contraction coordinate. -/
theorem rhs_dot_0 (j : S16384x128.Idx) (k : dot_S16384x128_S128x128_S16384x128_1_0_0_1_n_n.contr.Idx) :
    (dot_S16384x128_S128x128_S16384x128_1_0_0_1_n_n.rhsIdx j k 0).val = (k ⟨0, Nat.one_pos⟩).val :=
  DotDims.rhsIdx_val_of_single (d := dot_S16384x128_S128x128_S16384x128_1_0_0_1_n_n) (cr := 0) rfl j k

/-- On its kept axis: the output column. -/
theorem rhs_dot_1 (j : S16384x128.Idx) (k : dot_S16384x128_S128x128_S16384x128_1_0_0_1_n_n.contr.Idx) :
    (dot_S16384x128_S128x128_S16384x128_1_0_0_1_n_n.rhsIdx j k 1).val = (j 1).val := by
  unfold DotDims.rhsIdx
  rw [dif_neg (show ¬(1 : Fin S128x128.rank) ∈ dot_S16384x128_S128x128_S16384x128_1_0_0_1_n_n.rhsBatch by decide),
    dif_pos (show (1 : Fin S128x128.rank) ∈ dot_S16384x128_S128x128_S16384x128_1_0_0_1_n_n.rhsNonContracting by decide)]
  rfl

/-- The product of the flattened image block with a `128 x 128` matrix into the zero accumulator, read at
    `(r, w)`: the sum over the contracted coordinate. -/
theorem matmul_flat_apply {φ₁ φ₂ : FTy} (A : FVec Ideal S16384x128 φ₁) (B : FVec Ideal S128x128 φ₂) (r : Fin 16384) (w : Fin 128) :
    matmul (F := Ideal) dot_S16384x128_S128x128_S16384x128_1_0_0_1_n_n none A B (constant (F := Ideal) S16384x128 .f32 0x00000000#32) (ix2 r w)
      = ∑ k : Fin 128, A (ix2 r k) * B (ix2 k w) := by
  refine (Ideal.matmul_constant_zero_apply dot_S16384x128_S128x128_S16384x128_1_0_0_1_n_n none A B (ix2 r w)).trans ?_
  rw [← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have hl : dot_S16384x128_S128x128_S16384x128_1_0_0_1_n_n.lhsIdx (ix2 r w)
      ((contrEquiv1 dot_S16384x128_S128x128_S16384x128_1_0_0_1_n_n 128 rfl rfl).symm k) = ix2 r k := by
    funext ax; apply Fin.ext
    match ax with
    | ⟨0, _⟩ => exact lhs_dot_0 _ _
    | ⟨1, _⟩ => exact (lhs_dot_1 _ _).trans hk
  have hr : dot_S16384x128_S128x128_S16384x128_1_0_0_1_n_n.rhsIdx (ix2 r w)
      ((contrEquiv1 dot_S16384x128_S128x128_S16384x128_1_0_0_1_n_n 128 rfl rfl).symm k) = ix2 k w := by
    funext ax; apply Fin.ext
    match ax with
    | ⟨0, _⟩ => exact (rhs_dot_0 _ _).trans hk
    | ⟨1, _⟩ => exact rhs_dot_1 _ _
  rw [hl, hr]

end Matmul

section Coordinates
open GridSample

/-- The pixel coordinate of the x-coordinate at an output position. -/
theorem pay2_apply (g : Vec Ideal S1x1x128 .f32) (wo : Fin 128) :
    k0_pay2 (F := Ideal) g (ix1 wo) = pix (g (ix3 (0 : Fin 1) (0 : Fin 1) wo)) := by
  unfold k0_pay2
  show ((shapeCast S128 g _ (ix1 wo) + one) * half) * c127 = _
  rw [shapeCast_11a_a_apply]
  rfl

/-- The pixel coordinate of the y-coordinate at an output position. -/
theorem pay3_apply (g : Vec Ideal S1x1x128 .f32) (wo : Fin 128) :
    k0_pay3 (F := Ideal) g (ix1 wo) = pix (g (ix3 (0 : Fin 1) (0 : Fin 1) wo)) := by
  unfold k0_pay3
  show ((shapeCast S128 g _ (ix1 wo) + one) * half) * c127 = _
  rw [shapeCast_11a_a_apply]
  rfl

theorem pay4_apply (g : Vec Ideal S1x1x128 .f32) (wo : Fin 128) :
    k0_pay4 (F := Ideal) g (ix1 wo) = fl (g (ix3 (0 : Fin 1) (0 : Fin 1) wo)) := by
  unfold k0_pay4
  show Ideal.liftRound Int.floor (k0_pay2 (F := Ideal) g (ix1 wo)) = _
  rw [pay2_apply]
  rfl

theorem pay5_apply (g : Vec Ideal S1x1x128 .f32) (wo : Fin 128) :
    k0_pay5 (F := Ideal) g (ix1 wo) = fl (g (ix3 (0 : Fin 1) (0 : Fin 1) wo)) := by
  unfold k0_pay5
  show Ideal.liftRound Int.floor (k0_pay3 (F := Ideal) g (ix1 wo)) = _
  rw [pay3_apply]
  rfl

theorem pay6_apply (g : Vec Ideal S1x1x128 .f32) (wo : Fin 128) :
    k0_pay6 (F := Ideal) g (ix1 wo) = fl (g (ix3 (0 : Fin 1) (0 : Fin 1) wo)) + one := by
  unfold k0_pay6
  show k0_pay4 (F := Ideal) g (ix1 wo) + one = _
  rw [pay4_apply]

theorem pay7_apply (g : Vec Ideal S1x1x128 .f32) (wo : Fin 128) :
    k0_pay7 (F := Ideal) g (ix1 wo) = fl (g (ix3 (0 : Fin 1) (0 : Fin 1) wo)) + one := by
  unfold k0_pay7
  show k0_pay5 (F := Ideal) g (ix1 wo) + one = _
  rw [pay5_apply]

theorem pay8_apply (g : Vec Ideal S1x1x128 .f32) (wo : Fin 128) :
    k0_pay8 (F := Ideal) g (ix1 wo) = wHi (g (ix3 (0 : Fin 1) (0 : Fin 1) wo)) := by
  unfold k0_pay8
  show k0_pay2 (F := Ideal) g (ix1 wo) - k0_pay4 (F := Ideal) g (ix1 wo) = _
  rw [pay2_apply, pay4_apply]
  rfl

theorem pay9_apply (g : Vec Ideal S1x1x128 .f32) (wo : Fin 128) :
    k0_pay9 (F := Ideal) g (ix1 wo) = wHi (g (ix3 (0 : Fin 1) (0 : Fin 1) wo)) := by
  unfold k0_pay9
  show k0_pay3 (F := Ideal) g (ix1 wo) - k0_pay5 (F := Ideal) g (ix1 wo) = _
  rw [pay3_apply, pay5_apply]
  rfl

theorem pay10_apply (g : Vec Ideal S1x1x128 .f32) (wo : Fin 128) :
    k0_pay10 (F := Ideal) g (ix1 wo) = wLo (g (ix3 (0 : Fin 1) (0 : Fin 1) wo)) := by
  unfold k0_pay10
  show one - k0_pay8 (F := Ideal) g (ix1 wo) = _
  rw [pay8_apply]
  rfl

end Coordinates

section Taps
open GridSample

/-- A `[128]` vector put on one row and repeated over the 128 rows reads, at `(j, w)`, the vector at `w`. -/
theorem rowBroadcast_apply {α : Type} (v : S128.Idx → α) (j w : Fin 128) :
    broadcastTo S128x128 (shapeCast S1x128 v Facts₀.shapeCasts_S128_S1x128) Facts₀.broadcasts_S1x128_S128x128 (ix2 j w) = v (ix1 w) :=
  (broadcastTo_1b_ab_apply _ _ j w).trans (shapeCast_a_1a_apply v _ 0 w)

/-- The same through an identity cast of the row. -/
theorem rowBroadcast_apply' {α : Type} (v : S128.Idx → α) (j w : Fin 128) :
    broadcastTo S128x128 (shapeCast S1x128 (shapeCast S1x128 v Facts₀.shapeCasts_S128_S1x128) Facts₀.shapeCasts_S1x128_S1x128)
      Facts₀.broadcasts_S1x128_S128x128 (ix2 j w) = v (ix1 w) := by
  rw [shapeCast_self]
  exact rowBroadcast_apply v j w

/-- The row-tap matrix at `(j, w)`: the two taps of the y-coordinate at `w`, read at row `j`. -/
theorem pay11_apply (vlo vhi vw : FVec Ideal S128 .f32) (cst : Ideal .f32) (j w : Fin 128) :
    k0_pay11 (F := Ideal) rowIota vlo vhi vw cst (ix2 j w)
      = tap (Ideal.fptosi 32 (vlo (ix1 w))) (cst - vw (ix1 w)) j + tap (Ideal.fptosi 32 (vhi (ix1 w))) (vw (ix1 w)) j := by
  unfold k0_pay11
  show Scalar.select (IntOp.cmpi .eq (rowIota (ix2 j w))
        (broadcastTo S128x128 (shapeCast S1x128 (fptosi 32 vlo) _) _ (ix2 j w)))
        (broadcastTo S128x128 (shapeCast S1x128 (shapeCast S1x128 (subf (broadcast S128 cst) vw) _) _) _ (ix2 j w)) zero
      + Scalar.select (IntOp.cmpi .eq (rowIota (ix2 j w))
        (broadcastTo S128x128 (shapeCast S1x128 (fptosi 32 vhi) _) _ (ix2 j w)))
        (broadcastTo S128x128 (shapeCast S1x128 (shapeCast S1x128 vw _) _) _ (ix2 j w)) zero = _
  rw [rowIota_apply, rowBroadcast_apply, rowBroadcast_apply, rowBroadcast_apply', rowBroadcast_apply']
  rfl

end Taps

section Contractions
open GridSample

/-- The image block flattened to `16384 x 128`, read at `(c * 128 + h, w)`: the block at `(0, c, h, w)`. -/
theorem pay1_apply (x0 : Vec Ideal S1x128x128x128 .f32) (c h w : Fin 128) :
    k0_pay1 (F := Ideal) x0 (ix2 (rowOf c h) w) = x0 (ix4 (0 : Fin 1) c h w) := by
  unfold k0_pay1
  show shapeCast S16384x128 (shapeCast S16384x128 (truncf (F := Ideal) .bf16 (shapeCast S128x128x128 x0 _) _) _) _ (ix2 (rowOf c h) w) = _
  rw [shapeCast_self, shapeCast_flatten_apply]
  show shapeCast S128x128x128 x0 _ (ix3 c h w) = _
  exact shapeCast_1abc_abc_apply x0 _ c h w

/-- The flattened image times the column-tap matrix, reshaped back, read at `(c, h, w)`: row `c * 128 + h` of the
    flattened image contracted with the two taps of the x-coordinate at `w`. -/
theorem pay12_apply (vlo vhi vwhi vwlo : FVec Ideal S128 .f32) (A : Vec Ideal S16384x128 .bf16) (c h w : Fin 128) :
    k0_pay12 (F := Ideal) rowIota vlo vhi vwhi vwlo A (ix3 c h w)
      = ∑ k : Fin 128, A (ix2 (rowOf c h) k)
          * (tap (Ideal.fptosi 32 (vlo (ix1 w))) (vwlo (ix1 w)) k + tap (Ideal.fptosi 32 (vhi (ix1 w))) (vwhi (ix1 w)) k) := by
  unfold k0_pay12
  show shapeCast S128x128x128 (shapeCast S128x128x128
      (matmul (F := Ideal) dot_S16384x128_S128x128_S16384x128_1_0_0_1_n_n none A (truncf (F := Ideal) .bf16 _ _)
        (constant (F := Ideal) S16384x128 .f32 0x00000000#32)) _) _ (ix3 c h w) = _
  rw [shapeCast_self, shapeCast_unflatten_apply, matmul_flat_apply]
  refine Finset.sum_congr rfl fun k _ => congrArg (A (ix2 (rowOf c h) k) * ·) ?_
  show Scalar.select (IntOp.cmpi .eq (rowIota (ix2 k w))
        (broadcastTo S128x128 (shapeCast S1x128 (fptosi 32 vlo) _) _ (ix2 k w)))
        (broadcastTo S128x128 (shapeCast S1x128 (shapeCast S1x128 vwlo _) _) _ (ix2 k w)) zero
      + Scalar.select (IntOp.cmpi .eq (rowIota (ix2 k w))
        (broadcastTo S128x128 (shapeCast S1x128 (fptosi 32 vhi) _) _ (ix2 k w)))
        (broadcastTo S128x128 (shapeCast S1x128 (shapeCast S1x128 vwhi _) _) _ (ix2 k w)) zero = _
  rw [rowIota_apply, rowBroadcast_apply, rowBroadcast_apply, rowBroadcast_apply', rowBroadcast_apply']
  rfl

/-- The product with the row taps summed over the image rows, read at `(0, c, 0, w)`. -/
theorem pay13_apply (T : FVec Ideal S128x128 .f32) (P : Vec Ideal S128x128x128 .f32) (c w : Fin 128) :
    k0_pay13 (F := Ideal) T P (ix4 (0 : Fin 1) c (0 : Fin 1) w) = ∑ h : Fin 128, P (ix3 c h w) * T (ix2 h w) := by
  unfold k0_pay13
  show shapeCast S1x128x1x128 (multiReduction (F := Ideal) .add [1] S128x128
      (mulf P (broadcastTo S128x128x128 (shapeCast S1x128x128 T _) _)) 0x00000000#32 _ _ _) _ (ix4 (0 : Fin 1) c (0 : Fin 1) w) = _
  rw [shapeCast_ab_1a1b_apply]
  refine (laneSum_apply _ _ _ _ c w).trans ?_
  refine Finset.sum_congr rfl fun h _ => ?_
  show P (ix3 c h w) * broadcastTo S128x128x128 (shapeCast S1x128x128 T _) _ (ix3 c h w) = _
  rw [broadcastTo_1bc_abc_apply, shapeCast_ab_1ab_apply]

end Contractions

/-- At channel c and output position wo the row is the image block's channel c contracted along its columns
    with the taps of the x-coordinate at wo, then along its rows with the taps of the y-coordinate at wo. -/
theorem rowFn_apply (x0 : Vec Ideal S1x128x128x128 .f32) (gxr gyr : Vec Ideal S1x1x128 .f32) (c wo : Fin 128) :
    rowFn (F := Ideal) x0 gxr gyr (ix4 (0 : Fin 1) c (0 : Fin 1) wo)
      = GridSample.sepTerm (fun h w => x0 (ix4 (0 : Fin 1) c h w))
          (gxr (ix3 (0 : Fin 1) (0 : Fin 1) wo)) (gyr (ix3 (0 : Fin 1) (0 : Fin 1) wo)) := by
  unfold rowFn
  refine (pay13_apply _ _ c wo).trans ?_
  unfold GridSample.sepTerm
  refine Finset.sum_congr rfl fun h _ => ?_
  rw [pay12_apply, pay11_apply, pay4_apply, pay6_apply, pay8_apply, pay10_apply, pay5_apply, pay7_apply, pay9_apply]
  refine congrArg₂ (· * ·) (Finset.sum_congr rfl fun k _ => ?_) rfl
  rw [pay1_apply]
  rfl

end Cert.KernelIdeal.RowValue

end
-- ==== Proof.SampleArray.lean ====
/-
  Bilinear sampling of a batch of images at a batch of coordinate grids, as ONE function of the two argument
  arrays, index by index, in the separable spelling; and the same for one block of the kernel's grid.

  The source array holds 8 images of 128 channels of 128 x 128 pixels; the grid array holds, per image and per
  output pixel (ho, wo), the normalized coordinate pair (x, y). Output entry (b, c, ho, wo) samples channel c of
  image b at the pair the grid holds at (b, ho, wo).
-/
import proofs.«155408_j54039278519070_1_alg».proof.Proof.SampleSpec

noncomputable section

namespace GridSample

open Idealize.ShloMosaic Idealize.ShloMosaic.ValueIdx

/-- The whole result array from the whole argument arrays. -/
def arrSep (a0 : (⟨4, ![8, 128, 128, 128]⟩ : Shape).Idx → EReal) (a1 : (⟨4, ![8, 128, 128, 2]⟩ : Shape).Idx → EReal) :
    (⟨4, ![8, 128, 128, 128]⟩ : Shape).Idx → EReal :=
  fun y => sepTerm (fun h w => a0 (ix4 (y 0 : Fin 8) (y 1 : Fin 128) h w))
    (a1 (ix4 (y 0 : Fin 8) (y 2 : Fin 128) (y 3 : Fin 128) (0 : Fin 2)))
    (a1 (ix4 (y 0 : Fin 8) (y 2 : Fin 128) (y 3 : Fin 128) (1 : Fin 2)))

/-- One output block (all channels, 16 output rows) from one image and the 16 rows of x- and of y-coordinates. -/
def blockSep (x0 : (⟨4, ![1, 128, 128, 128]⟩ : Shape).Idx → EReal) (x1 x2 : (⟨3, ![1, 16, 128]⟩ : Shape).Idx → EReal) :
    (⟨4, ![1, 128, 16, 128]⟩ : Shape).Idx → EReal :=
  fun y => sepTerm (fun h w => x0 (ix4 (0 : Fin 1) (y 1 : Fin 128) h w))
    (x1 (ix3 (0 : Fin 1) (y 2 : Fin 16) (y 3 : Fin 128)))
    (x2 (ix3 (0 : Fin 1) (y 2 : Fin 16) (y 3 : Fin 128)))

end GridSample

end
-- ==== Proof.LibReadNewest.lean ====
/-
  A load through the whole-shape rectangle of a buffer whose NEWEST store went through the whole-shape
  rectangle reads that store's payload, however many older stores lie under it: the newest piece covers
  every index, so the older pieces never show.

  (A scratch buffer rewritten whole once per unrolled step and read back whole after each rewrite is held
  by a run as the list of all its stores so far, newest first; this reads it.)
-/
import Idealize.ShloMosaic.Lib.Pipeline.Value

noncomputable section

namespace Idealize.ShloMosaic.ReadNewest

open Idealize.ShloMosaic

variable {Val : EltTy → Type} {S : Shape} {e : EltTy}

/-- The newest piece of a list of writes is the whole shape at zero offsets (however the zeros are spelt):
    a load through that rectangle reads the piece's payload, whatever the older pieces. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Idealize.ShloMosaic.ReadNewest

end
-- ==== Proof.KernelBlock.lean ====
/-
  What one grid point of the kernel leaves in its output block, at the extended reals: the block's separable
  sampling of the point's image by the point's sixteen coordinate rows.

  The body stores sixteen slabs `[1, 128, 1, 128]`, one per output row r, and they tile the block. Slab r's
  payload is the row function of the image block and of rows r of the two coordinate blocks: the flattened
  image is read back from its scratch as stored, and the product scratch, rewritten whole for every row, is read
  back at its newest contents. So every slab agrees with one function of the block index, and the block is that
  function.
-/
import proofs.«155408_j54039278519070_1_alg».proof.Proof.Gen.KernelIdeal.Frame
import proofs.«155408_j54039278519070_1_alg».proof.Proof.RowAtIndex
import proofs.«155408_j54039278519070_1_alg».proof.Proof.SampleArray
import proofs.«155408_j54039278519070_1_alg».proof.Proof.LibReadNewest

set_option maxRecDepth 16384

noncomputable section

namespace Cert.KernelIdeal.BlockValue

open Idealize.ShloMosaic Idealize.ShloMosaic.TcCoe Idealize.ShloMosaic.Tactic Idealize.ShloMosaic.ValueIdx Idealize.SL.Sem
open Cert.KernelIdeal Cert.KernelIdeal.Gen Cert.KernelIdeal.RowValue

theorem zeros4 : (![0, 0, 0, 0] : Fin 4 → Nat) = fun _ => 0 := by funext a; fin_cases a <;> rfl
theorem zeros3 : (![0, 0, 0] : Fin 3 → Nat) = fun _ => 0 := by funext a; fin_cases a <;> rfl
theorem zeros2 : (![0, 0] : Fin 2 → Nat) = fun _ => 0 := by funext a; fin_cases a <;> rfl

/-- A payload that is the row function of the image block and of rows `r` of the coordinate blocks agrees, on
    slab `r` of the output block, with the block's sampling function. -/
theorem slab_agrees (x0 : Vec Ideal S1x128x128x128 .f32) (x1 x2 : Vec Ideal S1x16x128 .f32) (r : Fin 16)
    (inbO : ∀ a, (![0, 0, r.val, 0] : Fin 4 → Nat) a + (![1, 128, 1, 128] : Fin 4 → Nat) a ≤ S1x128x16x128.size a)
    (inbI : ∀ a, (![0, r.val, 0] : Fin 3 → Nat) a + S1x1x128.size a ≤ S1x16x128.size a)
    (P : S1x128x1x128.Idx → EReal)
    (hP : P = rowFn (F := Ideal) x0 (View.ld x1 (Rect.unit (s := S1x16x128) ![0, r.val, 0] S1x1x128.size inbI))
      (View.ld x2 (Rect.unit (s := S1x16x128) ![0, r.val, 0] S1x1x128.size inbI)))
    (x : S1x128x1x128.Idx) :
    P x = GridSample.blockSep x0 x1 x2 ((Rect.unit (s := S1x128x16x128) ![0, 0, r.val, 0] ![1, 128, 1, 128] inbO).emb x) := by
  subst hP
  obtain ⟨c, wo, rfl⟩ : ∃ (c wo : Fin 128), x = ix4 (0 : Fin 1) c (0 : Fin 1) wo :=
    ⟨x 1, x 3, by
      have h0 : (x 0).val < 1 := (x 0).isLt
      have h2 : (x 2).val < 1 := (x 2).isLt
      funext a; apply Fin.ext
      fin_cases a
      · show (x 0).val = 0; omega
      · rfl
      · show (x 2).val = 0; omega
      · rfl⟩
  rw [rowFn_apply]
  have hemb : (Rect.unit (s := S1x128x16x128) ![0, 0, r.val, 0] ![1, 128, 1, 128] inbO).emb (ix4 (0 : Fin 1) c (0 : Fin 1) wo)
      = ix4 (0 : Fin 1) c r wo := by
    funext a; apply Fin.ext
    fin_cases a
    · show 0 + 1 * 0 = 0; omega
    · show 0 + 1 * c.val = c.val; omega
    · show r.val + 1 * 0 = r.val; omega
    · show 0 + 1 * wo.val = wo.val; omega
  have hrow : (Rect.unit (s := S1x16x128) ![0, r.val, 0] S1x1x128.size inbI).emb (ix3 (0 : Fin 1) (0 : Fin 1) wo)
      = ix3 (0 : Fin 1) r wo := by
    funext a; apply Fin.ext
    fin_cases a
    · show 0 + 1 * 0 = 0; omega
    · show r.val + 1 * 0 = r.val; omega
    · show 0 + 1 * wo.val = wo.val; omega
  rw [hemb]
  show _ = GridSample.sepTerm (fun h w => x0 (ix4 (0 : Fin 1) c h w)) (x1 (ix3 (0 : Fin 1) r wo)) (x2 (ix3 (0 : Fin 1) r wo))
  show GridSample.sepTerm _ (x1 ((Rect.unit (s := S1x16x128) ![0, r.val, 0] S1x1x128.size inbI).emb (ix3 (0 : Fin 1) (0 : Fin 1) wo)))
      (x2 ((Rect.unit (s := S1x16x128) ![0, r.val, 0] S1x1x128.size inbI).emb (ix3 (0 : Fin 1) (0 : Fin 1) wo))) = _
  rw [hrow]

/-- The body's output block is `GridSample.blockSep` of its three input blocks. -/
theorem out0_eq (c : Dev nD) (i : grid0.Coords) (arg2 : Memref sig .tc .vmem S1x128x128x128 .f32) (harg2 : arg2.IsWhole) (arg3 : Memref sig .tc .vmem S1x16x128 .f32) (harg3 : arg3.IsWhole) (arg4 : Memref sig .tc .vmem S1x16x128 .f32) (harg4 : arg4.IsWhole) (arg5 : Memref sig .tc .vmem S1x128x16x128 .f32) (harg5 : arg5.IsWhole) (arg6 : Memref sig .tc .vmem S128x128x128 .f32) (harg6 : arg6.IsWhole) (arg7 : Memref sig .tc .vmem S16384x128 .bf16) (harg7 : arg7.IsWhole)
    (x0 : Vec Ideal S1x128x128x128 .f32) (x1 : Vec Ideal S1x16x128 .f32) (x2 : Vec Ideal S1x16x128 .f32) :
    out0_A_3 (F := Ideal) c i arg2 harg2 arg3 harg3 arg4 harg4 arg5 harg5 arg6 harg6 arg7 harg7 x0 x1 x2 = GridSample.blockSep x0 x1 x2 := by
  unfold out0_A_3
  rw [View.read_writes_eq_canon _ _ _ (cover0_A_3 c i arg2 harg2 arg3 harg3 arg4 harg4 arg5 harg5 arg6 harg6 arg7 harg7 x0 x1 x2)]
  funext y
  refine View.canon_apply_of_pieces (GridSample.blockSep x0 x1 x2) _ ?_ y (cover0_A_3 c i arg2 harg2 arg3 harg3 arg4 harg4 arg5 harg5 arg6 harg6 arg7 harg7 x0 x1 x2 y)
  unfold kernelRun0_A
  dsimp only
  sl_unfold_words
  simp only [View.readAt_eq_ld, harg2.read_unread, harg3.read_unread, harg4.read_unread,
    View.ld_unit_zero (S := S1x128x128x128) zeros4, View.readCov_unit_zero (S := S16384x128) _ zeros2,
    ReadNewest.readCov_cons_unit_zero (S := S128x128x128) _ zeros3]
  intro p hp
  simp only [List.mem_cons, List.mem_nil_iff, or_false] at hp
  rcases hp with rfl | rfl | rfl | rfl | rfl | rfl | rfl | rfl | rfl | rfl | rfl | rfl | rfl | rfl | rfl | rfl
  · intro x; exact slab_agrees x0 x1 x2 ⟨15, by decide⟩ inb_S1x128x16x128_S1x128x1x128_0_0_15_0 inb_S1x16x128_S1x1x128_0_15_0 _ rfl x
  · intro x; exact slab_agrees x0 x1 x2 ⟨14, by decide⟩ inb_S1x128x16x128_S1x128x1x128_0_0_14_0 inb_S1x16x128_S1x1x128_0_14_0 _ rfl x
  · intro x; exact slab_agrees x0 x1 x2 ⟨13, by decide⟩ inb_S1x128x16x128_S1x128x1x128_0_0_13_0 inb_S1x16x128_S1x1x128_0_13_0 _ rfl x
  · intro x; exact slab_agrees x0 x1 x2 ⟨12, by decide⟩ inb_S1x128x16x128_S1x128x1x128_0_0_12_0 inb_S1x16x128_S1x1x128_0_12_0 _ rfl x
  · intro x; exact slab_agrees x0 x1 x2 ⟨11, by decide⟩ inb_S1x128x16x128_S1x128x1x128_0_0_11_0 inb_S1x16x128_S1x1x128_0_11_0 _ rfl x
  · intro x; exact slab_agrees x0 x1 x2 ⟨10, by decide⟩ inb_S1x128x16x128_S1x128x1x128_0_0_10_0 inb_S1x16x128_S1x1x128_0_10_0 _ rfl x
  · intro x; exact slab_agrees x0 x1 x2 ⟨9, by decide⟩ inb_S1x128x16x128_S1x128x1x128_0_0_9_0 inb_S1x16x128_S1x1x128_0_9_0 _ rfl x
  · intro x; exact slab_agrees x0 x1 x2 ⟨8, by decide⟩ inb_S1x128x16x128_S1x128x1x128_0_0_8_0 inb_S1x16x128_S1x1x128_0_8_0 _ rfl x
  · intro x; exact slab_agrees x0 x1 x2 ⟨7, by decide⟩ inb_S1x128x16x128_S1x128x1x128_0_0_7_0 inb_S1x16x128_S1x1x128_0_7_0 _ rfl x
  · intro x; exact slab_agrees x0 x1 x2 ⟨6, by decide⟩ inb_S1x128x16x128_S1x128x1x128_0_0_6_0 inb_S1x16x128_S1x1x128_0_6_0 _ rfl x
  · intro x; exact slab_agrees x0 x1 x2 ⟨5, by decide⟩ inb_S1x128x16x128_S1x128x1x128_0_0_5_0 inb_S1x16x128_S1x1x128_0_5_0 _ rfl x
  · intro x; exact slab_agrees x0 x1 x2 ⟨4, by decide⟩ inb_S1x128x16x128_S1x128x1x128_0_0_4_0 inb_S1x16x128_S1x1x128_0_4_0 _ rfl x
  · intro x; exact slab_agrees x0 x1 x2 ⟨3, by decide⟩ inb_S1x128x16x128_S1x128x1x128_0_0_3_0 inb_S1x16x128_S1x1x128_0_3_0 _ rfl x
  · intro x; exact slab_agrees x0 x1 x2 ⟨2, by decide⟩ inb_S1x128x16x128_S1x128x1x128_0_0_2_0 inb_S1x16x128_S1x1x128_0_2_0 _ rfl x
  · intro x; exact slab_agrees x0 x1 x2 ⟨1, by decide⟩ inb_S1x128x16x128_S1x128x1x128_0_0_1_0 inb_S1x16x128_S1x1x128_0_1_0 _ rfl x
  · intro x; exact slab_agrees x0 x1 x2 ⟨0, by decide⟩ inb_S1x128x16x128_S1x128x1x128_0_0_0_0 inb_S1x16x128_S1x1x128_0_0_0 _ rfl x

end Cert.KernelIdeal.BlockValue

end
-- ==== Proof.KernelArray.lean ====
/-
  The kernel's whole result array at the extended reals: every grid point's block is the restriction of one
  whole-array function of the two argument arrays, and the blocks tile the array.
-/
import proofs.«155408_j54039278519070_1_alg».proof.Proof.Gen.KernelIdeal.Value
import proofs.«155408_j54039278519070_1_alg».proof.Proof.KernelBlock
import proofs.«155408_j54039278519070_1_alg».proof.Proof.SampleArray
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-! ## The index maps over the grid -/

/-- The printed index maps, decided over the 64 grid points: the image block moves with the output block's
    image coordinate and sits at 0 elsewhere; each coordinate block moves with the output block's image and
    row-tile coordinates; the output block sits at 0 on the channel and the column axes, and its image and
    row-tile coordinates stay below 8. -/
theorem idx_facts : ∀ t : Fin cfg0.N,
    win0_0.index t (0 : Fin 4) = win0_3.index t (0 : Fin 4) ∧ win0_0.index t (1 : Fin 4) = 0
    ∧ win0_0.index t (2 : Fin 4) = 0 ∧ win0_0.index t (3 : Fin 4) = 0
    ∧ win0_1.index t (0 : Fin 3) = win0_3.index t (0 : Fin 4) ∧ win0_1.index t (1 : Fin 3) = win0_3.index t (2 : Fin 4)
    ∧ win0_1.index t (2 : Fin 3) = 0
    ∧ win0_2.index t (0 : Fin 3) = win0_3.index t (0 : Fin 4) ∧ win0_2.index t (1 : Fin 3) = win0_3.index t (2 : Fin 4)
    ∧ win0_2.index t (2 : Fin 3) = 0
    ∧ win0_3.index t (1 : Fin 4) = 0 ∧ win0_3.index t (3 : Fin 4) = 0
    ∧ win0_3.index t (0 : Fin 4) ≤ 7 ∧ win0_3.index t (2 : Fin 4) ≤ 7 :=
  (by decide +kernel : ∀ t : Fin grid0.N, _)

/-- Every pair (image, row tile) is some grid point's output block. -/
theorem idx_onto : ∀ (q0 q2 : Fin 8), ∃ t : Fin cfg0.N, win0_3.index t = ![q0.val, 0, q2.val, 0] :=
  (by decide +kernel : ∀ (q0 q2 : Fin 8), ∃ t : Fin grid0.N, win0_3.index t = ![q0.val, 0, q2.val, 0])

/-! ## The two coordinate arrays the region finds -/

/-- The x-coordinates as the region finds them: the reshape of the slice [..., 0] of the grid argument. -/
theorem V_main_v1 (c : Dev nD) :
    (V m c main_v1 : S8x128x128.Idx → EReal)
      = shapeCast S8x128x128 (extractStridedSlice S8x128x128x1 ![0, 0, 0, 0]
          (m ((c : Thread nD τ).loc main_arg1) : S8x128x128x2.Idx → EReal) Facts₀.slices_S8x128x128x2_S8x128x128x1_0_0_0_0)
          Facts₀.shapeCasts_S8x128x128x1_S8x128x128 := by
  dsimp only [Gen.V, Gen.hostOps0]
  after_results
  rfl

/-- The y-coordinates as the region finds them: the reshape of the slice [..., 1] of the grid argument. -/
theorem V_main_v3 (c : Dev nD) :
    (V m c main_v3 : S8x128x128.Idx → EReal)
      = shapeCast S8x128x128 (extractStridedSlice S8x128x128x1 ![0, 0, 0, 1]
          (m ((c : Thread nD τ).loc main_arg1) : S8x128x128x2.Idx → EReal) Facts₀.slices_S8x128x128x2_S8x128x128x1_0_0_0_1)
          Facts₀.shapeCasts_S8x128x128x1_S8x128x128 := by
  dsimp only [Gen.V, Gen.hostOps0]
  after_results
  rfl

/-- A reshape [8,128,128,1] → [8,128,128] of a slice [..., k : k+1] of an array [8,128,128,2], read at
    (b, ho, wo), is the array at (b, ho, wo, k): the two row-major positions agree, and the slice shifts the
    last coordinate by k. -/
theorem reshape_slice_apply (A : S8x128x128x2.Idx → EReal) (k : Fin 2)
    (hs : S8x128x128x2.Slices ![0, 0, 0, k.val] S8x128x128x1) (hc : S8x128x128x1.ShapeCasts S8x128x128)
    (b : Fin 8) (ho wo : Fin 128) :
    shapeCast S8x128x128 (extractStridedSlice S8x128x128x1 ![0, 0, 0, k.val] A hs) hc (ix3 b ho wo) = A (ix4 b ho wo k) := by
  refine (shapeCast_apply _ hc (ix3 b ho wo) (ix4 b ho wo (0 : Fin 1)) ?_).trans ?_
  · rw [Shape.rowMajor_val_four, Shape.rowMajor_val_three]
    show ((b.val * 128 + ho.val) * 128 + wo.val) * 1 + 0 = (b.val * 128 + ho.val) * 128 + wo.val
    omega
  · refine extractStridedSlice_apply _ A hs (ix4 b ho wo (0 : Fin 1)) (ix4 b ho wo k) fun a => ?_
    match a with
    | ⟨0, _⟩ => show b.val = 0 + b.val; omega
    | ⟨1, _⟩ => show ho.val = 0 + ho.val; omega
    | ⟨2, _⟩ => show wo.val = 0 + wo.val; omega
    | ⟨3, _⟩ => show k.val = k.val + 0; omega

/-- Entry (b, ho, wo) of the x-coordinates is entry (b, ho, wo, 0) of the grid argument. -/
theorem V_main_v1_apply (c : Dev nD) (b : Fin 8) (ho wo : Fin 128) :
    (V m c main_v1 : S8x128x128.Idx → EReal) (ix3 b ho wo)
      = (m ((c : Thread nD τ).loc main_arg1) : S8x128x128x2.Idx → EReal) (ix4 b ho wo (0 : Fin 2)) := by
  rw [V_main_v1]
  exact reshape_slice_apply _ (0 : Fin 2) _ _ b ho wo

/-- Entry (b, ho, wo) of the y-coordinates is entry (b, ho, wo, 1) of the grid argument. -/
theorem V_main_v3_apply (c : Dev nD) (b : Fin 8) (ho wo : Fin 128) :
    (V m c main_v3 : S8x128x128.Idx → EReal) (ix3 b ho wo)
      = (m ((c : Thread nD τ).loc main_arg1) : S8x128x128x2.Idx → EReal) (ix4 b ho wo (1 : Fin 2)) := by
  rw [V_main_v3]
  exact reshape_slice_apply _ (1 : Fin 2) _ _ b ho wo

/-! ## The input blocks read off the argument arrays -/

/-- The image block at point t, read at an index, is the image argument at the index with the output block's
    image coordinate in front and the same three coordinates behind it. -/
theorem iblk0_apply (c : Dev nD) (t : Fin cfg0.N) (x : S1x128x128x128.Idx) (k : S8x128x128x128.Idx)
    (hk0 : (k 0).val = win0_3.index t (0 : Fin 4)) (hk1 : (k 1).val = (x 1).val)
    (hk2 : (k 2).val = (x 2).val) (hk3 : (k 3).val = (x 3).val) :
    (iblk m c 0 t : Vec Ideal S1x128x128x128 .f32) x
      = (m ((c : Thread nD τ).loc main_arg0) : S8x128x128x128.Idx → EReal) k := by
  obtain ⟨e00, e01, e02, e03, -⟩ := idx_facts t
  have hx0 : (x 0).val < 1 := (x 0).isLt
  unfold iblk
  rw [View.read_apply]
  show V m c main_arg0 _ = _
  rw [V_main_arg0]
  show (m ((c : Thread nD τ).loc main_arg0) : S8x128x128x128.Idx → EReal) _ = _
  congr 1
  funext a
  apply Fin.ext
  match a with
  | ⟨0, _⟩ => show win0_0.index t (0 : Fin 4) * 1 + 1 * (x 0).val = (k 0).val; omega
  | ⟨1, _⟩ => show win0_0.index t (1 : Fin 4) * 128 + 1 * (x 1).val = (k 1).val; omega
  | ⟨2, _⟩ => show win0_0.index t (2 : Fin 4) * 128 + 1 * (x 2).val = (k 2).val; omega
  | ⟨3, _⟩ => show win0_0.index t (3 : Fin 4) * 128 + 1 * (x 3).val = (k 3).val; omega

/-- The block of x-coordinates at point t, read at row r and column wo, is the grid argument's first
    component at the image of the output block, row 16 · (row tile) + r, column wo. -/
theorem iblk1_apply (c : Dev nD) (t : Fin cfg0.N) (x : S1x16x128.Idx) (b : Fin 8) (ho wo : Fin 128)
    (hb : b.val = win0_3.index t (0 : Fin 4)) (hho : ho.val = win0_3.index t (2 : Fin 4) * 16 + (x 1).val)
    (hwo : wo.val = (x 2).val) :
    (iblk m c 1 t : Vec Ideal S1x16x128 .f32) x
      = (m ((c : Thread nD τ).loc main_arg1) : S8x128x128x2.Idx → EReal) (ix4 b ho wo (0 : Fin 2)) := by
  obtain ⟨-, -, -, -, e10, e11, e12, -⟩ := idx_facts t
  have hx0 : (x 0).val < 1 := (x 0).isLt
  unfold iblk
  rw [View.read_apply]
  show (V m c main_v1 : S8x128x128.Idx → EReal) _ = _
  rw [← V_main_v1_apply m c b ho wo]
  congr 1
  funext a
  apply Fin.ext
  match a with
  | ⟨0, _⟩ => show win0_1.index t (0 : Fin 3) * 1 + 1 * (x 0).val = b.val; omega
  | ⟨1, _⟩ => show win0_1.index t (1 : Fin 3) * 16 + 1 * (x 1).val = ho.val; omega
  | ⟨2, _⟩ => show win0_1.index t (2 : Fin 3) * 128 + 1 * (x 2).val = wo.val; omega

/-- The block of y-coordinates likewise, with the grid argument's second component. -/
theorem iblk2_apply (c : Dev nD) (t : Fin cfg0.N) (x : S1x16x128.Idx) (b : Fin 8) (ho wo : Fin 128)
    (hb : b.val = win0_3.index t (0 : Fin 4)) (hho : ho.val = win0_3.index t (2 : Fin 4) * 16 + (x 1).val)
    (hwo : wo.val = (x 2).val) :
    (iblk m c 2 t : Vec Ideal S1x16x128 .f32) x
      = (m ((c : Thread nD τ).loc main_arg1) : S8x128x128x2.Idx → EReal) (ix4 b ho wo (1 : Fin 2)) := by
  obtain ⟨-, -, -, -, -, -, -, e20, e21, e22, -⟩ := idx_facts t
  have hx0 : (x 0).val < 1 := (x 0).isLt
  unfold iblk
  rw [View.read_apply]
  show (V m c main_v3 : S8x128x128.Idx → EReal) _ = _
  rw [← V_main_v3_apply m c b ho wo]
  congr 1
  funext a
  apply Fin.ext
  match a with
  | ⟨0, _⟩ => show win0_2.index t (0 : Fin 3) * 1 + 1 * (x 0).val = b.val; omega
  | ⟨1, _⟩ => show win0_2.index t (1 : Fin 3) * 16 + 1 * (x 1).val = ho.val; omega
  | ⟨2, _⟩ => show win0_2.index t (2 : Fin 3) * 128 + 1 * (x 2).val = wo.val; omega

/-! ## A block of the sampling function is the whole-array sampling function read through the block -/

/-- The block's sampling at block index y is the array's sampling at array index i, when the image block, read
    along channel y 1, is the image argument along image i 0 and channel i 1, and the two coordinate blocks at
    (y 2, y 3) are the grid argument's two components at (i 0, i 2, i 3). -/
theorem blockSep_eq_arrSep (A0 : S8x128x128x128.Idx → EReal) (A1 : S8x128x128x2.Idx → EReal)
    (x0 : S1x128x128x128.Idx → EReal) (x1 x2 : S1x16x128.Idx → EReal)
    (y : S1x128x16x128.Idx) (i : S8x128x128x128.Idx)
    (h0 : ∀ h w : Fin 128, x0 (ix4 (0 : Fin 1) (y 1 : Fin 128) h w) = A0 (ix4 (i 0 : Fin 8) (i 1 : Fin 128) h w))
    (h1 : x1 (ix3 (0 : Fin 1) (y 2 : Fin 16) (y 3 : Fin 128)) = A1 (ix4 (i 0 : Fin 8) (i 2 : Fin 128) (i 3 : Fin 128) (0 : Fin 2)))
    (h2 : x2 (ix3 (0 : Fin 1) (y 2 : Fin 16) (y 3 : Fin 128)) = A1 (ix4 (i 0 : Fin 8) (i 2 : Fin 128) (i 3 : Fin 128) (1 : Fin 2))) :
    GridSample.blockSep x0 x1 x2 y = GridSample.arrSep A0 A1 i := by
  have hs : (fun h w : Fin 128 => x0 (ix4 (0 : Fin 1) (y 1 : Fin 128) h w))
      = fun h w : Fin 128 => A0 (ix4 (i 0 : Fin 8) (i 1 : Fin 128) h w) :=
    funext fun h => funext fun w => h0 h w
  show GridSample.sepTerm (fun h w : Fin 128 => x0 (ix4 (0 : Fin 1) (y 1 : Fin 128) h w)) _ _
    = GridSample.sepTerm (fun h w : Fin 128 => A0 (ix4 (i 0 : Fin 8) (i 1 : Fin 128) h w)) _ _
  rw [hs, h1, h2]

/-! ## What a point writes back, the cover, and the run -/

/-- WHAT POINT t WRITES BACK is block t of the whole-array sampling function of the two arguments. -/
theorem flushed_eq (c : Dev nD) (t : Fin cfg0.N) :
    (dats m 0 c).flushed 3 t = ((cfg0.win 3).blk t).view.read (Elt Ideal)
      (GridSample.arrSep (m ((c : Thread nD τ).loc main_arg0)) (m ((c : Thread nD τ).loc main_arg1))) := by
  rw [Value.flushed3_A, BlockValue.out0_eq]
  obtain ⟨-, -, -, -, -, -, -, -, -, -, e31, e33, -⟩ := idx_facts t
  funext y
  have hy0 : (y 0).val < 1 := (y 0).isLt
  show GridSample.blockSep (iblk m c 0 t) (iblk m c 1 t) (iblk m c 2 t) ((cfg0.win 3).xinj (grid0.coords t) y)
    = GridSample.arrSep (m ((c : Thread nD τ).loc main_arg0)) (m ((c : Thread nD τ).loc main_arg1))
        (((cfg0.win 3).blk t).view.emb y)
  refine blockSep_eq_arrSep _ _ (iblk m c 0 t) (iblk m c 1 t) (iblk m c 2 t) _ _ (fun h w => ?_) ?_ ?_
  · -- the image block along the block index's channel
    refine iblk0_apply m c t _ _ ?_ ?_ rfl rfl
    · show win0_3.index t (0 : Fin 4) * 1 + 1 * (y 0).val = win0_3.index t (0 : Fin 4); omega
    · show win0_3.index t (1 : Fin 4) * 128 + 1 * (y 1).val = (y 1).val; omega
  · -- the x-coordinates at the block index's row and column
    refine iblk1_apply m c t _ _ _ _ ?_ ?_ ?_
    · show win0_3.index t (0 : Fin 4) * 1 + 1 * (y 0).val = win0_3.index t (0 : Fin 4); omega
    · show win0_3.index t (2 : Fin 4) * 16 + 1 * (y 2).val = win0_3.index t (2 : Fin 4) * 16 + (y 2).val; omega
    · show win0_3.index t (3 : Fin 4) * 128 + 1 * (y 3).val = (y 3).val; omega
  · -- the y-coordinates there
    refine iblk2_apply m c t _ _ _ _ ?_ ?_ ?_
    · show win0_3.index t (0 : Fin 4) * 1 + 1 * (y 0).val = win0_3.index t (0 : Fin 4); omega
    · show win0_3.index t (2 : Fin 4) * 16 + 1 * (y 2).val = win0_3.index t (2 : Fin 4) * 16 + (y 2).val; omega
    · show win0_3.index t (3 : Fin 4) * 128 + 1 * (y 3).val = (y 3).val; omega

/-- An index of the result array is in point t's block iff each coordinate is in the block's range on its axis. -/
theorem mem_blk (t : Fin cfg0.N) (i : S8x128x128x128.Idx) :
    i ∈ ((cfg0.win 3).blk t).view.set ↔ ∀ a : Fin 4, win0_3.index t a * S1x128x16x128.size a ≤ (i a).val
      ∧ (i a).val < win0_3.index t a * S1x128x16x128.size a + S1x128x16x128.size a := by
  show i ∈ ((View.whole main_v4).slice (win0_3.rect t)).set ↔ _
  rw [View.set_slice_whole, Rect.mem_set_unit]
  exact Iff.rfl

/-- The blocks tile the result array: index (b, c, ho, wo) lies in the block of the point whose output block
    has image coordinate b and row-tile coordinate ho / 16. -/
theorem cover (i : S8x128x128x128.Idx) :
    ∃ t : Fin cfg0.N, (cfg0.win 3).flush t = true ∧ i ∈ ((cfg0.win 3).blk t).view.set := by
  have hi0 : (i 0).val < 8 := (i 0).isLt
  have hi1 : (i 1).val < 128 := (i 1).isLt
  have hi2 : (i 2).val < 128 := (i 2).isLt
  have hi3 : (i 3).val < 128 := (i 3).isLt
  obtain ⟨t, ht⟩ := idx_onto ⟨(i 0).val, hi0⟩ ⟨(i 2).val / 16, by omega⟩
  have q0 : win0_3.index t (0 : Fin 4) = (i 0).val := congrFun ht 0
  have q1 : win0_3.index t (1 : Fin 4) = 0 := congrFun ht 1
  have q2 : win0_3.index t (2 : Fin 4) = (i 2).val / 16 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 128 ≤ (i 1).val ∧ (i 1).val < win0_3.index t (1 : Fin 4) * 128 + 128; omega
  | ⟨2, _⟩ => show win0_3.index t (2 : Fin 4) * 16 ≤ (i 2).val ∧ (i 2).val < win0_3.index t (2 : Fin 4) * 16 + 16; omega
  | ⟨3, _⟩ => show win0_3.index t (3 : Fin 4) * 128 ≤ (i 3).val ∧ (i 3).val < win0_3.index t (3 : Fin 4) * 128 + 128; omega

/-- THE RESULT ARRAY after the run: the whole-array sampling function of the two arguments. -/
theorem final (c : Dev nD) : (dats m 0 c).arrAt 3 cfg0.N
    = GridSample.arrSep (m ((c : Thread nD τ).loc main_arg0)) (m ((c : Thread nD τ).loc main_arg1)) :=
  (dats m 0 c).arrAt_eq_of_cover 3
    (GridSample.arrSep (m ((c : Thread nD τ).loc main_arg0)) (m ((c : Thread nD τ).loc main_arg1)))
    (fun t _ => flushed_eq m c t) cover

/-- Every weakly fair execution of the idealized kernel ends with its result array at `GridSample.arrSep` of
    the two argument arrays, which end unchanged. -/
theorem kernel_run : θ_run defs (onTc (τ := τ) (main (F := Ideal))) ⟨m, fun _ => 0, ρ⟩ fun r => ∀ c : Dev nD,
      r.2.mem ((c : Thread nD τ).loc main_v4)
        = GridSample.arrSep (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.GatherRead.lean ====
/-
  The reference's gather read at an index: it takes, for every channel, the image entry at the row and the
  column its two start-index words name (each read signed and clamped into the axis), within the batch member
  of the result index.
-/
import proofs.«155408_j54039278519070_1_alg».proof.ReferenceIdeal
import proofs.«155408_j54039278519070_1_alg».proof.Proof.Gen.ReferenceIdeal
import proofs.«155408_j54039278519070_1_alg».proof.Proof.SampleSpec

noncomputable section

namespace Cert.ReferenceIdeal.RefValue

open Idealize.ShloMosaic Idealize.ShloMosaic.ValueIdx Cert.ReferenceIdeal

/-- The reference's gather record (its dimension numbers and slice sizes), under a short name. -/
abbrev gd : GatherDims S8x128x128x128 S8x128x128x2 S8x128x128x128 :=
  gather_S8x128x128x128_S8x128x128x2_S8x128x128x128_1_23_0_0_23_3_112811

/-- The start index map names operand axis 2 (the rows) first … -/
theorem mem_map_two : (2 : Fin 4) ∈ gd.startIndexMap := by decide
/-- … and operand axis 3 (the columns) second. -/
theorem mem_map_three : (3 : Fin 4) ∈ gd.startIndexMap := by decide

/-- Component 0 of the start index of result index (b, c, ho, wo), the one for the row axis, sits at
    (b, ho, wo, 0) of the start indices: the result's three batch coordinates, then the component. -/
theorem siIdx_row (b : Fin 8) (c ho wo : Fin 128) :
    gd.siIdx (ix4 b c ho wo) ⟨List.idxOf (2 : Fin 4) gd.startIndexMap, List.idxOf_lt_length_iff.2 mem_map_two⟩
      = ix4 b ho wo (0 : Fin 2) := by
  funext a; refine Fin.ext ?_
  match a with
  | ⟨0, _⟩ => rfl
  | ⟨1, _⟩ => rfl
  | ⟨2, _⟩ => rfl
  | ⟨3, _⟩ => rfl

/-- Component 1, the one for the column axis, sits at (b, ho, wo, 1). -/
theorem siIdx_col (b : Fin 8) (c ho wo : Fin 128) :
    gd.siIdx (ix4 b c ho wo) ⟨List.idxOf (3 : Fin 4) gd.startIndexMap, List.idxOf_lt_length_iff.2 mem_map_three⟩
      = ix4 b ho wo (1 : Fin 2) := by
  funext a; refine Fin.ext ?_
  match a with
  | ⟨0, _⟩ => rfl
  | ⟨1, _⟩ => rfl
  | ⟨2, _⟩ => rfl
  | ⟨3, _⟩ => rfl

/-- On operand axis 0, the batching axis, the operand index is the result's coordinate 0: the start is 0 on a
    batching axis, the offset coordinate 0 off the kept axes, and the batch coordinate reads the result's batch
    axis paired with the start indices' axis 0. -/
theorem operand_axis0 (j : S8x128x128x128.Idx) (idx : IVec S8x128x128x2 32) :
    gd.start j idx 0 + gd.batchCoord j 0 + gd.offCoord j 0 = (j 0).val := by
  rw [GatherDims.start_batching gd j idx (0 : Fin 4) (by decide),
    GatherDims.offCoord_eq_zero gd j (0 : Fin 4) (fun h => ((GatherDims.mem_sKept _ _).mp h).2 (by decide))]
  simp only [Nat.zero_add, Nat.add_zero]
  rfl

/-- On operand axis 1, the one offset axis, the operand index is the result's coordinate 1: the start index map
    does not name the axis, it is no batching axis, and it is the first (and only) kept axis, read by the
    result's first (and only) offset axis. -/
theorem operand_axis1 (j : S8x128x128x128.Idx) (idx : IVec S8x128x128x2 32) :
    gd.start j idx 1 + gd.batchCoord j 1 + gd.offCoord j 1 = (j 1).val := by
  rw [GatherDims.batchCoord_eq_zero gd j (1 : Fin 4) (by decide)]
  have hs : gd.start j idx 1 = 0 := by
    unfold GatherDims.start
    rw [dif_neg (by decide)]
  rw [hs]
  simp only [Nat.zero_add, Nat.add_zero]
  rfl

/-- On operand axis 2, a collapsed axis the start index map names first, the operand index is the first
    start-index word, read signed and clamped into the axis: no batch and no offset coordinate. -/
theorem operand_axis2 (b : Fin 8) (c ho wo : Fin 128) (idx : IVec S8x128x128x2 32) :
    gd.start (ix4 b c ho wo) idx 2 + gd.batchCoord (ix4 b c ho wo) 2 + gd.offCoord (ix4 b c ho wo) 2
      = (GridSample.pos (idx (ix4 b ho wo (0 : Fin 2)))).val := by
  rw [GatherDims.batchCoord_eq_zero gd _ (2 : Fin 4) (by decide),
    GatherDims.offCoord_eq_zero gd _ (2 : Fin 4) (fun h => ((GatherDims.mem_sKept _ _).mp h).1 (by decide))]
  simp only [Nat.add_zero]
  unfold GatherDims.start
  rw [dif_pos mem_map_two, siIdx_row]
  rfl

/-- On operand axis 3, the collapsed axis the start index map names second, likewise with the second word. -/
theorem operand_axis3 (b : Fin 8) (c ho wo : Fin 128) (idx : IVec S8x128x128x2 32) :
    gd.start (ix4 b c ho wo) idx 3 + gd.batchCoord (ix4 b c ho wo) 3 + gd.offCoord (ix4 b c ho wo) 3
      = (GridSample.pos (idx (ix4 b ho wo (1 : Fin 2)))).val := by
  rw [GatherDims.batchCoord_eq_zero gd _ (3 : Fin 4) (by decide),
    GatherDims.offCoord_eq_zero gd _ (3 : Fin 4) (fun h => ((GatherDims.mem_sKept _ _).mp h).1 (by decide))]
  simp only [Nat.add_zero]
  unfold GatherDims.start
  rw [dif_pos mem_map_three, siIdx_col]
  rfl

/-- The gather at result index (b, c, ho, wo) is the operand at (b, c, row, column), row and column the
    positions the start-index words at (b, ho, wo, 0) and (b, ho, wo, 1) name. -/
theorem gather_apply {α : Type} (x : S8x128x128x128.Idx → α) (idx : IVec S8x128x128x2 32)
    (b : Fin 8) (c ho wo : Fin 128) :
    Host.gather gather_S8x128x128x128_S8x128x128x2_S8x128x128x128_1_23_0_0_23_3_112811 x idx (ix4 b c ho wo)
      = x (ix4 b c (GridSample.pos (idx (ix4 b ho wo (0 : Fin 2)))) (GridSample.pos (idx (ix4 b ho wo (1 : Fin 2))))) := by
  unfold Host.gather
  congr 1
  funext a
  refine Fin.ext ?_
  show gd.start (ix4 b c ho wo) idx a + gd.batchCoord (ix4 b c ho wo) a + gd.offCoord (ix4 b c ho wo) a = _
  match a with
  | ⟨0, _⟩ => exact operand_axis0 (ix4 b c ho wo) idx
  | ⟨1, _⟩ => exact operand_axis1 (ix4 b c ho wo) idx
  | ⟨2, _⟩ => exact operand_axis2 b c ho wo idx
  | ⟨3, _⟩ => exact operand_axis3 b c ho wo idx

end Cert.ReferenceIdeal.RefValue

end
-- ==== Proof.RefCorners.lean ====
/-
  The reference program's result read at an index: the four-corner spelling of bilinear sampling.

  The reference computes, per output position (b, ho, wo), the pixel coordinate of each of the two grid
  coordinates, its floor, the two neighbours as words and their weights; then, four times (once per pair of a
  row neighbour and a column neighbour), a 0/1 mask of the pair being in range, the pair clipped and re-read as
  a start index, the image gathered there for every channel, and the product of the two; last the four products
  weighted and added. Each stage is read at the position's coordinates, from the coordinates down.
-/
import proofs.«155408_j54039278519070_1_alg».proof.Proof.RefRead
import proofs.«155408_j54039278519070_1_alg».proof.Proof.GatherRead
import proofs.«155408_j54039278519070_1_alg».proof.Proof.SampleSpec

noncomputable section

namespace Cert.ReferenceIdeal.RefValue

open Idealize.ShloMosaic Idealize.ShloMosaic.ValueIdx Cert.ReferenceIdeal Cert.ReferenceIdeal.Gen
open Cert.ReferenceIdeal.Read

/-! ## Layout operations of the program's shapes, read at coordinates -/

/-- A per-position array (batch, row, column) broadcast first to a unit channel axis and then along the
    channels reads, at (b, c, ho, wo), the array at (b, ho, wo). -/
theorem bcast_channels_apply {α : Type} (m : S8x128x128.Idx → α) (b : Fin 8) (c ho wo : Fin 128) :
    broadcastInDim S8x128x128x128 ![0, 1, 2, 3] bcast_S8x1x128x128_S8x128x128x128_0_1_2_3
      (broadcastInDim S8x1x128x128 ![0, 2, 3] bcast_S8x128x128_S8x1x128x128_0_2_3 m) (ix4 b c ho wo)
      = m (ix3 b ho wo) := by
  rw [broadcastInDim_apply _ bcast_S8x1x128x128_S8x128x128x128_0_1_2_3 _ (ix4 b c ho wo) (ix4 b (0 : Fin 1) ho wo)
    (fun a => match a with
      | ⟨0, _⟩ => by show b.val = if (8 : Nat) = 1 then 0 else b.val; rw [if_neg (by decide)]
      | ⟨1, _⟩ => by show 0 = if (1 : Nat) = 1 then 0 else c.val; rw [if_pos rfl]
      | ⟨2, _⟩ => by show ho.val = if (128 : Nat) = 1 then 0 else ho.val; rw [if_neg (by decide)]
      | ⟨3, _⟩ => by show wo.val = if (128 : Nat) = 1 then 0 else wo.val; rw [if_neg (by decide)])]
  exact broadcastInDim_apply _ bcast_S8x128x128_S8x1x128x128_0_2_3 m (ix4 b (0 : Fin 1) ho wo) (ix3 b ho wo)
    (fun a => match a with
      | ⟨0, _⟩ => by show b.val = if (8 : Nat) = 1 then 0 else b.val; rw [if_neg (by decide)]
      | ⟨1, _⟩ => by show ho.val = if (128 : Nat) = 1 then 0 else ho.val; rw [if_neg (by decide)]
      | ⟨2, _⟩ => by show wo.val = if (128 : Nat) = 1 then 0 else wo.val; rw [if_neg (by decide)])

/-- A per-position array given a trailing unit axis reads, at (b, ho, wo, 0), the array at (b, ho, wo). -/
theorem bcast_unit_apply {α : Type} (m : S8x128x128.Idx → α) (b : Fin 8) (ho wo : Fin 128) (k : Fin 1) :
    broadcastInDim S8x128x128x1 ![0, 1, 2] bcast_S8x128x128_S8x128x128x1_0_1_2 m (ix4 b ho wo k) = m (ix3 b ho wo) :=
  broadcastInDim_apply _ bcast_S8x128x128_S8x128x128x1_0_1_2 m (ix4 b ho wo k) (ix3 b ho wo)
    (fun a => match a with
      | ⟨0, _⟩ => by show b.val = if (8 : Nat) = 1 then 0 else b.val; rw [if_neg (by decide)]
      | ⟨1, _⟩ => by show ho.val = if (128 : Nat) = 1 then 0 else ho.val; rw [if_neg (by decide)]
      | ⟨2, _⟩ => by show wo.val = if (128 : Nat) = 1 then 0 else wo.val; rw [if_neg (by decide)])

/-- Two per-position arrays joined along a new last axis: entry 0 of the pair at (b, ho, wo) is the first array there. -/
theorem pair_apply_zero {α : Type} (r q : S8x128x128.Idx → α) (b : Fin 8) (ho wo : Fin 128) :
    concatenate S8x128x128x2 3
      [⟨S8x128x128x1, broadcastInDim S8x128x128x1 ![0, 1, 2] bcast_S8x128x128_S8x128x128x1_0_1_2 r⟩,
       ⟨S8x128x128x1, broadcastInDim S8x128x128x1 ![0, 1, 2] bcast_S8x128x128_S8x128x128x1_0_1_2 q⟩]
      concatenates_S8x128x128x1_S8x128x128x1_S8x128x128x2_d3 (ix4 b ho wo (0 : Fin 2)) = r (ix3 b ho wo) := by
  rw [concatenate_pair_apply_left (3 : Fin S8x128x128x2.rank) _ _ concatenates_S8x128x128x1_S8x128x128x1_S8x128x128x2_d3
    (ix4 b ho wo (0 : Fin 2)) rfl (ix4 b ho wo (0 : Fin 1))
    (fun a => match a with | ⟨0, _⟩ => rfl | ⟨1, _⟩ => rfl | ⟨2, _⟩ => rfl | ⟨3, _⟩ => rfl)]
  exact bcast_unit_apply r b ho wo 0

/-- … and entry 1 is the second array there. -/
theorem pair_apply_one {α : Type} (r q : S8x128x128.Idx → α) (b : Fin 8) (ho wo : Fin 128) :
    concatenate S8x128x128x2 3
      [⟨S8x128x128x1, broadcastInDim S8x128x128x1 ![0, 1, 2] bcast_S8x128x128_S8x128x128x1_0_1_2 r⟩,
       ⟨S8x128x128x1, broadcastInDim S8x128x128x1 ![0, 1, 2] bcast_S8x128x128_S8x128x128x1_0_1_2 q⟩]
      concatenates_S8x128x128x1_S8x128x128x1_S8x128x128x2_d3 (ix4 b ho wo (1 : Fin 2)) = q (ix3 b ho wo) := by
  rw [concatenate_pair_apply_right (3 : Fin S8x128x128x2.rank) _ _ concatenates_S8x128x128x1_S8x128x128x1_S8x128x128x2_d3
    (ix4 b ho wo (1 : Fin 2)) rfl rfl (ix4 b ho wo (0 : Fin 1))
    (fun a => match a with
      | ⟨0, _⟩ => fun _ => rfl | ⟨1, _⟩ => fun _ => rfl | ⟨2, _⟩ => fun _ => rfl
      | ⟨3, _⟩ => fun h => absurd rfl h)
    rfl]
  exact bcast_unit_apply q b ho wo 0

/-- The gather of the image at the joined pair of start-index arrays reads, at (b, c, ho, wo), channel c of image b
    at the row and column the two arrays name at (b, ho, wo). -/
theorem gather_pair_apply {α : Type} (x : S8x128x128x128.Idx → α) (r q : IVec S8x128x128 32)
    (b : Fin 8) (c ho wo : Fin 128) :
    Host.gather gather_S8x128x128x128_S8x128x128x2_S8x128x128x128_1_23_0_0_23_3_112811 x
      (concatenate S8x128x128x2 3
        [⟨S8x128x128x1, broadcastInDim S8x128x128x1 ![0, 1, 2] bcast_S8x128x128_S8x128x128x1_0_1_2 r⟩,
         ⟨S8x128x128x1, broadcastInDim S8x128x128x1 ![0, 1, 2] bcast_S8x128x128_S8x128x128x1_0_1_2 q⟩]
        concatenates_S8x128x128x1_S8x128x128x1_S8x128x128x2_d3) (ix4 b c ho wo)
      = x (ix4 b c (GridSample.pos (r (ix3 b ho wo))) (GridSample.pos (q (ix3 b ho wo)))) := by
  rw [gather_apply, pair_apply_zero, pair_apply_one]

/-! ## The two grid coordinates and what the program derives from each

The first coordinate (last-axis entry 0) places the column, the second (entry 1) the row. -/

/-- The reshaped slice of last-axis entry 0 of the grid, at (b, ho, wo), is the grid at (b, ho, wo, 0). -/
theorem coord0_at (x1 : FVec Ideal S8x128x128x2 .f32) (b : Fin 8) (ho wo : Fin 128) :
    val_main_v1 (F := Ideal) x1 (ix3 b ho wo) = x1 (ix4 b ho wo (0 : Fin 2)) := by
  rw [val_main_v1_apply, val_main_v0_apply]
  refine congrArg x1 (funext fun a => Fin.ext ?_)
  have hb := b.isLt; have hh := ho.isLt; have hw := wo.isLt
  match a with
  | ⟨0, _⟩ => show ((b.val * 128 + ho.val) * 128 + wo.val) / 16384 = b.val; omega
  | ⟨1, _⟩ => show ((b.val * 128 + ho.val) * 128 + wo.val) / 128 % 128 = ho.val; omega
  | ⟨2, _⟩ => show ((b.val * 128 + ho.val) * 128 + wo.val) / 1 % 128 = wo.val; omega
  | ⟨3, _⟩ => rfl

/-- The reshaped slice of last-axis entry 1 of the grid, at (b, ho, wo), is the grid at (b, ho, wo, 1). -/
theorem coord1_at (x1 : FVec Ideal S8x128x128x2 .f32) (b : Fin 8) (ho wo : Fin 128) :
    val_main_v3 (F := Ideal) x1 (ix3 b ho wo) = x1 (ix4 b ho wo (1 : Fin 2)) := by
  rw [val_main_v3_apply, val_main_v2_apply]
  refine congrArg x1 (funext fun a => Fin.ext ?_)
  have hb := b.isLt; have hh := ho.isLt; have hw := wo.isLt
  match a with
  | ⟨0, _⟩ => show ((b.val * 128 + ho.val) * 128 + wo.val) / 16384 = b.val; omega
  | ⟨1, _⟩ => show ((b.val * 128 + ho.val) * 128 + wo.val) / 128 % 128 = ho.val; omega
  | ⟨2, _⟩ => show ((b.val * 128 + ho.val) * 128 + wo.val) / 1 % 128 = wo.val; omega
  | ⟨3, _⟩ => rfl

/-- The pixel coordinate of the first grid coordinate. -/
theorem pix0_at (x1 : FVec Ideal S8x128x128x2 .f32) (b : Fin 8) (ho wo : Fin 128) :
    val_main_v9 (F := Ideal) x1 (ix3 b ho wo) = GridSample.pix (x1 (ix4 b ho wo (0 : Fin 2))) := by
  rw [val_main_v9_apply, val_main_v7_apply, val_main_v5_apply, coord0_at, val_main_v4_apply, val_main_cst_apply,
    val_main_v6_apply, val_main_cst_0_apply, val_main_v8_apply, val_main_cst_1_apply]
  rfl

/-- The pixel coordinate of the second grid coordinate. -/
theorem pix1_at (x1 : FVec Ideal S8x128x128x2 .f32) (b : Fin 8) (ho wo : Fin 128) :
    val_main_v15 (F := Ideal) x1 (ix3 b ho wo) = GridSample.pix (x1 (ix4 b ho wo (1 : Fin 2))) := by
  rw [val_main_v15_apply, val_main_v13_apply, val_main_v11_apply, coord1_at, val_main_v10_apply, val_main_cst_2_apply,
    val_main_v12_apply, val_main_cst_3_apply, val_main_v14_apply, val_main_cst_4_apply]
  rfl

/-- Their floors. -/
theorem fl0_at (x1 : FVec Ideal S8x128x128x2 .f32) (b : Fin 8) (ho wo : Fin 128) :
    val_main_v16 (F := Ideal) x1 (ix3 b ho wo) = GridSample.fl (x1 (ix4 b ho wo (0 : Fin 2))) := by
  rw [val_main_v16_apply, pix0_at]
  rfl

theorem fl1_at (x1 : FVec Ideal S8x128x128x2 .f32) (b : Fin 8) (ho wo : Fin 128) :
    val_main_v17 (F := Ideal) x1 (ix3 b ho wo) = GridSample.fl (x1 (ix4 b ho wo (1 : Fin 2))) := by
  rw [val_main_v17_apply, pix1_at]
  rfl

/-- The weights of the upper neighbours. -/
theorem wHi0_at (x1 : FVec Ideal S8x128x128x2 .f32) (b : Fin 8) (ho wo : Fin 128) :
    val_main_v22 (F := Ideal) x1 (ix3 b ho wo) = GridSample.wHi (x1 (ix4 b ho wo (0 : Fin 2))) := by
  rw [val_main_v22_apply, pix0_at, fl0_at]
  rfl

theorem wHi1_at (x1 : FVec Ideal S8x128x128x2 .f32) (b : Fin 8) (ho wo : Fin 128) :
    val_main_v23 (F := Ideal) x1 (ix3 b ho wo) = GridSample.wHi (x1 (ix4 b ho wo (1 : Fin 2))) := by
  rw [val_main_v23_apply, pix1_at, fl1_at]
  rfl

/-- The weights of the lower neighbours. -/
theorem wLo0_at (x1 : FVec Ideal S8x128x128x2 .f32) (b : Fin 8) (ho wo : Fin 128) :
    val_main_v25 (F := Ideal) x1 (ix3 b ho wo) = GridSample.wLo (x1 (ix4 b ho wo (0 : Fin 2))) := by
  rw [val_main_v25_apply, val_main_v24_apply, val_main_cst_7_apply, wHi0_at]
  rfl

theorem wLo1_at (x1 : FVec Ideal S8x128x128x2 .f32) (b : Fin 8) (ho wo : Fin 128) :
    val_main_v27 (F := Ideal) x1 (ix3 b ho wo) = GridSample.wLo (x1 (ix4 b ho wo (1 : Fin 2))) := by
  rw [val_main_v27_apply, val_main_v26_apply, val_main_cst_8_apply, wHi1_at]
  rfl

/-- The lower and the upper neighbour of each coordinate, as words. -/
theorem lo0_at (x1 : FVec Ideal S8x128x128x2 .f32) (b : Fin 8) (ho wo : Fin 128) :
    val_main_v28 (F := Ideal) x1 (ix3 b ho wo) = GridSample.lo (x1 (ix4 b ho wo (0 : Fin 2))) := by
  rw [val_main_v28_apply, fl0_at]
  rfl

theorem hi0_at (x1 : FVec Ideal S8x128x128x2 .f32) (b : Fin 8) (ho wo : Fin 128) :
    val_main_v29 (F := Ideal) x1 (ix3 b ho wo) = GridSample.hi (x1 (ix4 b ho wo (0 : Fin 2))) := by
  rw [val_main_v29_apply, val_main_v19_apply, fl0_at, val_main_v18_apply, val_main_cst_5_apply]
  rfl

theorem lo1_at (x1 : FVec Ideal S8x128x128x2 .f32) (b : Fin 8) (ho wo : Fin 128) :
    val_main_v30 (F := Ideal) x1 (ix3 b ho wo) = GridSample.lo (x1 (ix4 b ho wo (1 : Fin 2))) := by
  rw [val_main_v30_apply, fl1_at]
  rfl

theorem hi1_at (x1 : FVec Ideal S8x128x128x2 .f32) (b : Fin 8) (ho wo : Fin 128) :
    val_main_v31 (F := Ideal) x1 (ix3 b ho wo) = GridSample.hi (x1 (ix4 b ho wo (1 : Fin 2))) := by
  rw [val_main_v31_apply, val_main_v21_apply, fl1_at, val_main_v20_apply, val_main_cst_6_apply]
  rfl

/-! ## The four corners

Each corner pairs a row neighbour (of the second coordinate) with a column neighbour (of the first): the 0/1 mask
of the pair being in range, the two start indices (clipped, then re-read as an index counted from the end when
negative), the gathered image entry, and their product. -/

/-! ### Row neighbour lower, column neighbour lower -/

theorem mask_lo_lo_at (x1 : FVec Ideal S8x128x128x2 .f32) (b : Fin 8) (ho wo : Fin 128) :
    val_main_v43 (F := Ideal) x1 (ix3 b ho wo)
      = (((GridSample.inb (GridSample.lo (x1 (ix4 b ho wo (1 : Fin 2)))) (GridSample.lo (x1 (ix4 b ho wo (0 : Fin 2))))).toNat : ℝ) : EReal) := by
  simp only [val_main_v43_apply, val_main_v42_apply, val_main_v39_apply, val_main_v36_apply, val_main_v33_apply,
    val_main_v35_apply, val_main_v38_apply, val_main_v41_apply, val_main_v32_apply, val_main_c_apply,
    val_main_v34_apply, val_main_c_9_apply, val_main_v37_apply, val_main_c_10_apply, val_main_v40_apply,
    val_main_c_11_apply, lo0_at, lo1_at]
  rfl

theorem row_lo_lo_at (x1 : FVec Ideal S8x128x128x2 .f32) (b : Fin 8) (ho wo : Fin 128) :
    val_main_v50 (F := Ideal) x1 (ix3 b ho wo) = GridSample.wrapNeg (GridSample.clip (GridSample.lo (x1 (ix4 b ho wo (1 : Fin 2))))) := by
  simp only [val_main_v50_apply, val_main_v47_apply, val_main_v49_apply, val_main_v44_apply, val_main_v46_apply,
    val_main_c_16_apply, val_main_v48_apply, val_main_c_17_apply, val_main_call0_v4_apply, val_main_call0_v3_apply,
    val_main_c_13_apply, val_main_call0_v2_apply, val_main_call0_v1_apply, val_main_call0_v0_apply,
    val_main_c_12_apply, lo1_at]
  rfl

theorem col_lo_lo_at (x1 : FVec Ideal S8x128x128x2 .f32) (b : Fin 8) (ho wo : Fin 128) :
    val_main_v55 (F := Ideal) x1 (ix3 b ho wo) = GridSample.wrapNeg (GridSample.clip (GridSample.lo (x1 (ix4 b ho wo (0 : Fin 2))))) := by
  simp only [val_main_v55_apply, val_main_v52_apply, val_main_v54_apply, val_main_v45_apply, val_main_v51_apply,
    val_main_c_18_apply, val_main_v53_apply, val_main_c_19_apply, val_main_call1_v4_apply, val_main_call1_v3_apply,
    val_main_c_15_apply, val_main_call1_v2_apply, val_main_call1_v1_apply, val_main_call1_v0_apply,
    val_main_c_14_apply, lo0_at]
  rfl

theorem corner_lo_lo_at (x0 : FVec Ideal S8x128x128x128 .f32) (x1 : FVec Ideal S8x128x128x2 .f32)
    (b : Fin 8) (c ho wo : Fin 128) :
    val_main_v62 (F := Ideal) x0 x1 (ix4 b c ho wo)
      = GridSample.corner (fun h w => x0 (ix4 b c h w)) (GridSample.lo (x1 (ix4 b ho wo (1 : Fin 2)))) (GridSample.lo (x1 (ix4 b ho wo (0 : Fin 2)))) := by
  rw [val_main_v62_apply,
    show val_main_v59 (F := Ideal) x0 x1 (ix4 b c ho wo)
        = x0 (ix4 b c (GridSample.pos (val_main_v50 (F := Ideal) x1 (ix3 b ho wo)))
            (GridSample.pos (val_main_v55 (F := Ideal) x1 (ix3 b ho wo))))
      from gather_pair_apply x0 (val_main_v50 (F := Ideal) x1) (val_main_v55 (F := Ideal) x1) b c ho wo,
    show val_main_v61 (F := Ideal) x1 (ix4 b c ho wo) = val_main_v43 (F := Ideal) x1 (ix3 b ho wo)
      from bcast_channels_apply (val_main_v43 (F := Ideal) x1) b c ho wo,
    row_lo_lo_at, col_lo_lo_at, mask_lo_lo_at]
  rfl

/-! ### Row neighbour lower, column neighbour upper -/

theorem mask_lo_hi_at (x1 : FVec Ideal S8x128x128x2 .f32) (b : Fin 8) (ho wo : Fin 128) :
    val_main_v74 (F := Ideal) x1 (ix3 b ho wo)
      = (((GridSample.inb (GridSample.lo (x1 (ix4 b ho wo (1 : Fin 2)))) (GridSample.hi (x1 (ix4 b ho wo (0 : Fin 2))))).toNat : ℝ) : EReal) := by
  simp only [val_main_v74_apply, val_main_v73_apply, val_main_v70_apply, val_main_v67_apply, val_main_v64_apply,
    val_main_v66_apply, val_main_v69_apply, val_main_v72_apply, val_main_v63_apply, val_main_c_20_apply,
    val_main_v65_apply, val_main_c_21_apply, val_main_v68_apply, val_main_c_22_apply, val_main_v71_apply,
    val_main_c_23_apply, hi0_at, lo1_at]
  rfl

theorem row_lo_hi_at (x1 : FVec Ideal S8x128x128x2 .f32) (b : Fin 8) (ho wo : Fin 128) :
    val_main_v81 (F := Ideal) x1 (ix3 b ho wo) = GridSample.wrapNeg (GridSample.clip (GridSample.lo (x1 (ix4 b ho wo (1 : Fin 2))))) := by
  simp only [val_main_v81_apply, val_main_v78_apply, val_main_v80_apply, val_main_v75_apply, val_main_v77_apply,
    val_main_c_28_apply, val_main_v79_apply, val_main_c_29_apply, val_main_call2_v4_apply, val_main_call2_v3_apply,
    val_main_c_25_apply, val_main_call2_v2_apply, val_main_call2_v1_apply, val_main_call2_v0_apply,
    val_main_c_24_apply, lo1_at]
  rfl

theorem col_lo_hi_at (x1 : FVec Ideal S8x128x128x2 .f32) (b : Fin 8) (ho wo : Fin 128) :
    val_main_v86 (F := Ideal) x1 (ix3 b ho wo) = GridSample.wrapNeg (GridSample.clip (GridSample.hi (x1 (ix4 b ho wo (0 : Fin 2))))) := by
  simp only [val_main_v86_apply, val_main_v83_apply, val_main_v85_apply, val_main_v76_apply, val_main_v82_apply,
    val_main_c_30_apply, val_main_v84_apply, val_main_c_31_apply, val_main_call3_v4_apply, val_main_call3_v3_apply,
    val_main_c_27_apply, val_main_call3_v2_apply, val_main_call3_v1_apply, val_main_call3_v0_apply,
    val_main_c_26_apply, hi0_at]
  rfl

theorem corner_lo_hi_at (x0 : FVec Ideal S8x128x128x128 .f32) (x1 : FVec Ideal S8x128x128x2 .f32)
    (b : Fin 8) (c ho wo : Fin 128) :
    val_main_v93 (F := Ideal) x0 x1 (ix4 b c ho wo)
      = GridSample.corner (fun h w => x0 (ix4 b c h w)) (GridSample.lo (x1 (ix4 b ho wo (1 : Fin 2)))) (GridSample.hi (x1 (ix4 b ho wo (0 : Fin 2)))) := by
  rw [val_main_v93_apply,
    show val_main_v90 (F := Ideal) x0 x1 (ix4 b c ho wo)
        = x0 (ix4 b c (GridSample.pos (val_main_v81 (F := Ideal) x1 (ix3 b ho wo)))
            (GridSample.pos (val_main_v86 (F := Ideal) x1 (ix3 b ho wo))))
      from gather_pair_apply x0 (val_main_v81 (F := Ideal) x1) (val_main_v86 (F := Ideal) x1) b c ho wo,
    show val_main_v92 (F := Ideal) x1 (ix4 b c ho wo) = val_main_v74 (F := Ideal) x1 (ix3 b ho wo)
      from bcast_channels_apply (val_main_v74 (F := Ideal) x1) b c ho wo,
    row_lo_hi_at, col_lo_hi_at, mask_lo_hi_at]
  rfl

/-! ### Row neighbour upper, column neighbour lower -/

theorem mask_hi_lo_at (x1 : FVec Ideal S8x128x128x2 .f32) (b : Fin 8) (ho wo : Fin 128) :
    val_main_v105 (F := Ideal) x1 (ix3 b ho wo)
      = (((GridSample.inb (GridSample.hi (x1 (ix4 b ho wo (1 : Fin 2)))) (GridSample.lo (x1 (ix4 b ho wo (0 : Fin 2))))).toNat : ℝ) : EReal) := by
  simp only [val_main_v105_apply, val_main_v104_apply, val_main_v101_apply, val_main_v98_apply, val_main_v95_apply,
    val_main_v97_apply, val_main_v100_apply, val_main_v103_apply, val_main_v94_apply, val_main_c_32_apply,
    val_main_v96_apply, val_main_c_33_apply, val_main_v99_apply, val_main_c_34_apply, val_main_v102_apply,
    val_main_c_35_apply, lo0_at, hi1_at]
  rfl

theorem row_hi_lo_at (x1 : FVec Ideal S8x128x128x2 .f32) (b : Fin 8) (ho wo : Fin 128) :
    val_main_v112 (F := Ideal) x1 (ix3 b ho wo) = GridSample.wrapNeg (GridSample.clip (GridSample.hi (x1 (ix4 b ho wo (1 : Fin 2))))) := by
  simp only [val_main_v112_apply, val_main_v109_apply, val_main_v111_apply, val_main_v106_apply, val_main_v108_apply,
    val_main_c_40_apply, val_main_v110_apply, val_main_c_41_apply, val_main_call4_v4_apply, val_main_call4_v3_apply,
    val_main_c_37_apply, val_main_call4_v2_apply, val_main_call4_v1_apply, val_main_call4_v0_apply,
    val_main_c_36_apply, hi1_at]
  rfl

theorem col_hi_lo_at (x1 : FVec Ideal S8x128x128x2 .f32) (b : Fin 8) (ho wo : Fin 128) :
    val_main_v117 (F := Ideal) x1 (ix3 b ho wo) = GridSample.wrapNeg (GridSample.clip (GridSample.lo (x1 (ix4 b ho wo (0 : Fin 2))))) := by
  simp only [val_main_v117_apply, val_main_v114_apply, val_main_v116_apply, val_main_v107_apply, val_main_v113_apply,
    val_main_c_42_apply, val_main_v115_apply, val_main_c_43_apply, val_main_call5_v4_apply, val_main_call5_v3_apply,
    val_main_c_39_apply, val_main_call5_v2_apply, val_main_call5_v1_apply, val_main_call5_v0_apply,
    val_main_c_38_apply, lo0_at]
  rfl

theorem corner_hi_lo_at (x0 : FVec Ideal S8x128x128x128 .f32) (x1 : FVec Ideal S8x128x128x2 .f32)
    (b : Fin 8) (c ho wo : Fin 128) :
    val_main_v124 (F := Ideal) x0 x1 (ix4 b c ho wo)
      = GridSample.corner (fun h w => x0 (ix4 b c h w)) (GridSample.hi (x1 (ix4 b ho wo (1 : Fin 2)))) (GridSample.lo (x1 (ix4 b ho wo (0 : Fin 2)))) := by
  rw [val_main_v124_apply,
    show val_main_v121 (F := Ideal) x0 x1 (ix4 b c ho wo)
        = x0 (ix4 b c (GridSample.pos (val_main_v112 (F := Ideal) x1 (ix3 b ho wo)))
            (GridSample.pos (val_main_v117 (F := Ideal) x1 (ix3 b ho wo))))
      from gather_pair_apply x0 (val_main_v112 (F := Ideal) x1) (val_main_v117 (F := Ideal) x1) b c ho wo,
    show val_main_v123 (F := Ideal) x1 (ix4 b c ho wo) = val_main_v105 (F := Ideal) x1 (ix3 b ho wo)
      from bcast_channels_apply (val_main_v105 (F := Ideal) x1) b c ho wo,
    row_hi_lo_at, col_hi_lo_at, mask_hi_lo_at]
  rfl

/-! ### Row neighbour upper, column neighbour upper -/

theorem mask_hi_hi_at (x1 : FVec Ideal S8x128x128x2 .f32) (b : Fin 8) (ho wo : Fin 128) :
    val_main_v136 (F := Ideal) x1 (ix3 b ho wo)
      = (((GridSample.inb (GridSample.hi (x1 (ix4 b ho wo (1 : Fin 2)))) (GridSample.hi (x1 (ix4 b ho wo (0 : Fin 2))))).toNat : ℝ) : EReal) := by
  simp only [val_main_v136_apply, val_main_v135_apply, val_main_v132_apply, val_main_v129_apply, val_main_v126_apply,
    val_main_v128_apply, val_main_v131_apply, val_main_v134_apply, val_main_v125_apply, val_main_c_44_apply,
    val_main_v127_apply, val_main_c_45_apply, val_main_v130_apply, val_main_c_46_apply, val_main_v133_apply,
    val_main_c_47_apply, hi0_at, hi1_at]
  rfl

theorem row_hi_hi_at (x1 : FVec Ideal S8x128x128x2 .f32) (b : Fin 8) (ho wo : Fin 128) :
    val_main_v143 (F := Ideal) x1 (ix3 b ho wo) = GridSample.wrapNeg (GridSample.clip (GridSample.hi (x1 (ix4 b ho wo (1 : Fin 2))))) := by
  simp only [val_main_v143_apply, val_main_v140_apply, val_main_v142_apply, val_main_v137_apply, val_main_v139_apply,
    val_main_c_52_apply, val_main_v141_apply, val_main_c_53_apply, val_main_call6_v4_apply, val_main_call6_v3_apply,
    val_main_c_49_apply, val_main_call6_v2_apply, val_main_call6_v1_apply, val_main_call6_v0_apply,
    val_main_c_48_apply, hi1_at]
  rfl

theorem col_hi_hi_at (x1 : FVec Ideal S8x128x128x2 .f32) (b : Fin 8) (ho wo : Fin 128) :
    val_main_v148 (F := Ideal) x1 (ix3 b ho wo) = GridSample.wrapNeg (GridSample.clip (GridSample.hi (x1 (ix4 b ho wo (0 : Fin 2))))) := by
  simp only [val_main_v148_apply, val_main_v145_apply, val_main_v147_apply, val_main_v138_apply, val_main_v144_apply,
    val_main_c_54_apply, val_main_v146_apply, val_main_c_55_apply, val_main_call7_v4_apply, val_main_call7_v3_apply,
    val_main_c_51_apply, val_main_call7_v2_apply, val_main_call7_v1_apply, val_main_call7_v0_apply,
    val_main_c_50_apply, hi0_at]
  rfl

theorem corner_hi_hi_at (x0 : FVec Ideal S8x128x128x128 .f32) (x1 : FVec Ideal S8x128x128x2 .f32)
    (b : Fin 8) (c ho wo : Fin 128) :
    val_main_v155 (F := Ideal) x0 x1 (ix4 b c ho wo)
      = GridSample.corner (fun h w => x0 (ix4 b c h w)) (GridSample.hi (x1 (ix4 b ho wo (1 : Fin 2)))) (GridSample.hi (x1 (ix4 b ho wo (0 : Fin 2)))) := by
  rw [val_main_v155_apply,
    show val_main_v152 (F := Ideal) x0 x1 (ix4 b c ho wo)
        = x0 (ix4 b c (GridSample.pos (val_main_v143 (F := Ideal) x1 (ix3 b ho wo)))
            (GridSample.pos (val_main_v148 (F := Ideal) x1 (ix3 b ho wo))))
      from gather_pair_apply x0 (val_main_v143 (F := Ideal) x1) (val_main_v148 (F := Ideal) x1) b c ho wo,
    show val_main_v154 (F := Ideal) x1 (ix4 b c ho wo) = val_main_v136 (F := Ideal) x1 (ix3 b ho wo)
      from bcast_channels_apply (val_main_v136 (F := Ideal) x1) b c ho wo,
    row_hi_hi_at, col_hi_hi_at, mask_hi_hi_at]
  rfl

/-! ## The four weights, broadcast along the channels, and the sum -/

theorem weight_lo_lo_at (x1 : FVec Ideal S8x128x128x2 .f32) (b : Fin 8) (c ho wo : Fin 128) :
    val_main_v158 (F := Ideal) x1 (ix4 b c ho wo) = GridSample.wLo (x1 (ix4 b ho wo (1 : Fin 2))) * GridSample.wLo (x1 (ix4 b ho wo (0 : Fin 2))) := by
  rw [show val_main_v158 (F := Ideal) x1 (ix4 b c ho wo) = val_main_v156 (F := Ideal) x1 (ix3 b ho wo)
      from bcast_channels_apply (val_main_v156 (F := Ideal) x1) b c ho wo,
    val_main_v156_apply, wLo1_at, wLo0_at]
  rfl

theorem weight_lo_hi_at (x1 : FVec Ideal S8x128x128x2 .f32) (b : Fin 8) (c ho wo : Fin 128) :
    val_main_v162 (F := Ideal) x1 (ix4 b c ho wo) = GridSample.wLo (x1 (ix4 b ho wo (1 : Fin 2))) * GridSample.wHi (x1 (ix4 b ho wo (0 : Fin 2))) := by
  rw [show val_main_v162 (F := Ideal) x1 (ix4 b c ho wo) = val_main_v160 (F := Ideal) x1 (ix3 b ho wo)
      from bcast_channels_apply (val_main_v160 (F := Ideal) x1) b c ho wo,
    val_main_v160_apply, wLo1_at, wHi0_at]
  rfl

theorem weight_hi_lo_at (x1 : FVec Ideal S8x128x128x2 .f32) (b : Fin 8) (c ho wo : Fin 128) :
    val_main_v167 (F := Ideal) x1 (ix4 b c ho wo) = GridSample.wHi (x1 (ix4 b ho wo (1 : Fin 2))) * GridSample.wLo (x1 (ix4 b ho wo (0 : Fin 2))) := by
  rw [show val_main_v167 (F := Ideal) x1 (ix4 b c ho wo) = val_main_v165 (F := Ideal) x1 (ix3 b ho wo)
      from bcast_channels_apply (val_main_v165 (F := Ideal) x1) b c ho wo,
    val_main_v165_apply, wHi1_at, wLo0_at]
  rfl

theorem weight_hi_hi_at (x1 : FVec Ideal S8x128x128x2 .f32) (b : Fin 8) (c ho wo : Fin 128) :
    val_main_v172 (F := Ideal) x1 (ix4 b c ho wo) = GridSample.wHi (x1 (ix4 b ho wo (1 : Fin 2))) * GridSample.wHi (x1 (ix4 b ho wo (0 : Fin 2))) := by
  rw [show val_main_v172 (F := Ideal) x1 (ix4 b c ho wo) = val_main_v170 (F := Ideal) x1 (ix3 b ho wo)
      from bcast_channels_apply (val_main_v170 (F := Ideal) x1) b c ho wo,
    val_main_v170_apply, wHi1_at, wHi0_at]
  rfl

/-- At (b, c, ho, wo) the reference's result is the four weighted corners of channel c of image b at the
    coordinate pair the grid holds at (b, ho, wo). -/
theorem ref_apply (x0 : FVec Ideal S8x128x128x128 .f32) (x1 : FVec Ideal S8x128x128x2 .f32)
    (b : Fin 8) (c ho wo : Fin 128) :
    Cert.ReferenceIdeal.Read.val_main_v174 (F := Ideal) x0 x1 (ix4 b c ho wo)
      = GridSample.cornerTerm (fun h w => x0 (ix4 b c h w))
          (x1 (ix4 b ho wo (0 : Fin 2))) (x1 (ix4 b ho wo (1 : Fin 2))) := by
  rw [val_main_v174_apply, val_main_v169_apply, val_main_v164_apply, val_main_v159_apply, val_main_v163_apply,
    val_main_v168_apply, val_main_v173_apply, corner_lo_lo_at, corner_lo_hi_at, corner_hi_lo_at, corner_hi_hi_at,
    weight_lo_lo_at, weight_lo_hi_at, weight_hi_lo_at, weight_hi_hi_at]
  rfl

end Cert.ReferenceIdeal.RefValue

end
-- ==== Proof.SampleLaw.lean ====
/-
  The two spellings of bilinear sampling agree on finite data.

  A neighbour word `k` is IN RANGE when, read signed, it lies in `0 … 127`. Then clipping and the
  negative-index wrap leave it alone, it names the position `k` itself, and it meets exactly one row
  index; out of range it meets none, and the four-corner spelling's mask is zero. So each tap vector is
  a weight at one position or nothing, a contraction with it picks one entry or vanishes, and the
  separable double contraction, distributed over the two taps of each coordinate (all entries and
  weights being real numbers), is the sum of the four masked, weighted corners.
-/
import proofs.«155408_j54039278519070_1_alg».proof.Proof.SampleSpec
import Idealize.ShloMosaic.Lib.Affine
import Mathlib.Algebra.BigOperators.Ring.Finset

noncomputable section

namespace GridSample

open Idealize.ShloMosaic

/-! ## Words in range -/

/-- Read signed, the word lies in `0 … 127`. -/
def InRange (k : BitVec 32) : Prop := 0 ≤ k.toInt ∧ k.toInt ≤ 127

instance (k : BitVec 32) : Decidable (InRange k) := inferInstanceAs (Decidable (_ ∧ _))

theorem toInt_zero32 : (0#32 : BitVec 32).toInt = 0 := by decide
theorem toInt_127 : (127#32 : BitVec 32).toInt = 127 := by decide

/-- The mask is one exactly when both neighbours are in range. -/
theorem inb_eq_one (ky kx : BitVec 32) : inb ky kx = 1#1 ↔ InRange ky ∧ InRange kx := by
  unfold inb InRange
  rw [IntOp.andi_eq_one, IntOp.andi_eq_one, IntOp.andi_eq_one, IntOp.cmpi_sge, IntOp.cmpi_sle, IntOp.cmpi_sge,
    IntOp.cmpi_sle, toInt_zero32, toInt_127]
  tauto

/-- The mask as a number: one or zero. -/
theorem inb_toNat (ky kx : BitVec 32) : (inb ky kx).toNat = if InRange ky ∧ InRange kx then 1 else 0 := by
  rcases BitVec.eq_zero_or_eq_one (inb ky kx) with h | h
  · have : ¬(InRange ky ∧ InRange kx) := fun hr => by
      have := (inb_eq_one ky kx).mpr hr; rw [h] at this; exact absurd this (by decide)
    rw [h, if_neg this]; rfl
  · rw [if_pos ((inb_eq_one ky kx).mp h), h]; rfl

/-- Clipping leaves a word in range alone. -/
theorem clip_of_inRange {k : BitVec 32} (h : InRange k) : clip k = k := by
  obtain ⟨h0, h1⟩ := h
  unfold clip IntOp.minsi IntOp.maxsi
  have e1 : (if k.slt 0#32 then 0#32 else k) = k := by
    rw [if_neg]; rw [BitVec.slt_iff_toInt_lt, toInt_zero32]; omega
  rw [e1]
  by_cases hk : (127#32 : BitVec 32).slt k
  · rw [BitVec.slt_iff_toInt_lt, toInt_127] at hk; omega
  · rw [if_neg hk]

/-- So does the negative-index wrap. -/
theorem wrapNeg_of_inRange {k : BitVec 32} (h : InRange k) : wrapNeg k = k := by
  unfold wrapNeg Scalar.select
  rw [if_neg]
  intro hc
  have := IntOp.cmpi_slt.mp hc
  rw [toInt_zero32] at this
  exact absurd h.1 (by omega)

/-- A row index's word is the neighbour word exactly when the neighbour is in range and names that row. -/
theorem ofNat_eq_iff (k : BitVec 32) (j : Fin 128) : BitVec.ofNat 32 j.val = k ↔ InRange k ∧ j = pos k := by
  have hj : j.val < 128 := j.isLt
  constructor
  · rintro rfl
    have hn : (BitVec.ofNat 32 j.val).toNat = j.val := by
      rw [BitVec.toNat_ofNat]; exact Nat.mod_eq_of_lt (by omega)
    have hi : (BitVec.ofNat 32 j.val).toInt = (j.val : Int) := by
      rw [BitVec.toInt_eq_toNat_cond, hn]; rw [if_pos (by omega)]
    refine ⟨⟨by rw [hi]; omega, by rw [hi]; omega⟩, Fin.ext ?_⟩
    show j.val = min (BitVec.ofNat 32 j.val).toInt.toNat 127
    rw [hi]; simp only [Int.toNat_natCast]; omega
  · rintro ⟨⟨h0, h1⟩, rfl⟩
    apply BitVec.eq_of_toNat_eq
    have hk : k.toInt = (k.toNat : Int) := by
      rw [BitVec.toInt_eq_toNat_cond] at h0 h1 ⊢
      split_ifs at h0 h1 ⊢ with hc
      · rfl
      · omega
    have hkn : k.toNat ≤ 127 := by omega
    rw [BitVec.toNat_ofNat]
    show (min k.toInt.toNat 127) % 2 ^ 32 = k.toNat
    rw [hk]; simp only [Int.toNat_natCast]; omega

/-! ## The constants are real numbers -/

/-- A pattern whose exponent field is not all ones denotes a real number. -/
theorem ieee_real {n : Nat} (e m : Nat) (b : BitVec n) (h : (b.extractLsb' m e).toNat ≠ 2 ^ e - 1) :
    ∃ r : ℝ, Ideal.ieee e m b = (r : EReal) := by
  unfold Ideal.ieee
  simp only []
  rw [if_neg h]
  split_ifs <;> exact ⟨_, rfl⟩

theorem one_real : ∃ r : ℝ, one = (r : EReal) := ieee_real 8 23 (0x3F800000#32 : BitVec 32) (by decide)
theorem half_real : ∃ r : ℝ, half = (r : EReal) := ieee_real 8 23 (0x3F000000#32 : BitVec 32) (by decide)
theorem c127_real : ∃ r : ℝ, c127 = (r : EReal) := ieee_real 8 23 (0x42FE0000#32 : BitVec 32) (by decide)
theorem zero_eq : zero = 0 := Ideal.ofBits_zero_f32

/-! ## Sums of reals inside the extended reals -/

theorem coe_sum {ι : Type} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-! ## A tap is a weight at one position or nothing -/

theorem tap_eq (k : BitVec 32) (w : EReal) (j : Fin 128) :
    tap k w j = if InRange k ∧ j = pos k then w else 0 := by
  unfold tap Scalar.select
  rw [zero_eq]
  by_cases h : InRange k ∧ j = pos k
  · have hc : IntOp.cmpi .eq (BitVec.ofNat 32 j.val) k = 1 := IntOp.cmpi_eq.mpr ((ofNat_eq_iff k j).mpr h)
    rw [if_pos h, if_pos hc]
  · have hc : ¬IntOp.cmpi .eq (BitVec.ofNat 32 j.val) k = 1 :=
      fun hc => h ((ofNat_eq_iff k j).mp (IntOp.cmpi_eq.mp hc))
    rw [if_neg h, if_neg hc]

/-- A real tap. -/
def tapR (k : BitVec 32) (a : ℝ) (j : Fin 128) : ℝ := if InRange k ∧ j = pos k then a else 0

theorem tap_coe (k : BitVec 32) (a : ℝ) (j : Fin 128) : tap k (a : EReal) j = ((tapR k a j : ℝ) : EReal) := by
  rw [tap_eq]; unfold tapR; split_ifs <;> simp

/-- Contracting with a real tap picks the entry at the neighbour, or vanishes. -/
theorem sum_mul_tapR (f : Fin 128 → ℝ) (k : BitVec 32) (a : ℝ) :
    ∑ j, f j * tapR k a j = if InRange k then f (pos k) * a else 0 := by
  unfold tapR
  by_cases h : InRange k
  · simp only [h, true_and, mul_ite, mul_zero, Finset.sum_ite_eq', Finset.mem_univ, if_true]
  · simp only [h, false_and, if_false, mul_zero, Finset.sum_const_zero]

/-! ## The law over the reals -/

/-- One corner over the reals. -/
def cornerR (S : Fin 128 → Fin 128 → ℝ) (ky kx : BitVec 32) : ℝ :=
  S (pos (wrapNeg (clip ky))) (pos (wrapNeg (clip kx))) * ((inb ky kx).toNat : ℝ)

theorem cornerR_eq (S : Fin 128 → Fin 128 → ℝ) (ky kx : BitVec 32) :
    cornerR S ky kx = if InRange ky ∧ InRange kx then S (pos ky) (pos kx) else 0 := by
  unfold cornerR
  rw [inb_toNat]
  by_cases h : InRange ky ∧ InRange kx
  · rw [if_pos h, if_pos h, clip_of_inRange h.1, clip_of_inRange h.2, wrapNeg_of_inRange h.1, wrapNeg_of_inRange h.2]
    simp
  · rw [if_neg h, if_neg h]; simp

/-- The separable double contraction with two taps per axis is the sum of the four corners. -/
theorem real_law (S : Fin 128 → Fin 128 → ℝ) (ky0 ky1 kx0 kx1 : BitVec 32) (a0 a1 c0 c1 : ℝ) :
    ∑ h, (∑ w, S h w * (tapR kx0 a0 w + tapR kx1 a1 w)) * (tapR ky0 c0 h + tapR ky1 c1 h)
      = ((cornerR S ky0 kx0 * (c0 * a0) + cornerR S ky0 kx1 * (c0 * a1)) + cornerR S ky1 kx0 * (c1 * a0))
          + cornerR S ky1 kx1 * (c1 * a1) := by
  have inner : ∀ h, ∑ w, S h w * (tapR kx0 a0 w + tapR kx1 a1 w)
      = (if InRange kx0 then S h (pos kx0) * a0 else 0) + (if InRange kx1 then S h (pos kx1) * a1 else 0) := by
    intro h
    simp only [mul_add, Finset.sum_add_distrib, sum_mul_tapR]
  have outer : ∀ T : Fin 128 → ℝ, ∑ h, T h * (tapR ky0 c0 h + tapR ky1 c1 h)
      = (if InRange ky0 then T (pos ky0) * c0 else 0) + (if InRange ky1 then T (pos ky1) * c1 else 0) := by
    intro T
    simp only [mul_add, Finset.sum_add_distrib, sum_mul_tapR]
  rw [Finset.sum_congr rfl (fun h _ => by rw [inner h]), outer, cornerR_eq, cornerR_eq, cornerR_eq, cornerR_eq]
  by_cases hx0 : InRange kx0 <;> by_cases hx1 : InRange kx1 <;> by_cases hy0 : InRange ky0 <;> by_cases hy1 : InRange ky1 <;>
    simp only [hx0, hx1, hy0, hy1, if_true, if_false, and_self, and_true, true_and, and_false, false_and, zero_mul, add_zero, zero_add] <;> ring

/-! ## The law over the extended reals, on finite data -/

theorem pix_real (g : ℝ) : ∃ a : ℝ, pix (g : EReal) = (a : EReal) := by
  obtain ⟨r1, h1⟩ := one_real; obtain ⟨rh, hh⟩ := half_real; obtain ⟨r127, h127⟩ := c127_real
  exact ⟨(g + r1) * rh * r127, by unfold pix; rw [h1, hh, h127, ← EReal.coe_add, ← EReal.coe_mul, ← EReal.coe_mul]⟩

theorem fl_real (g : ℝ) : ∃ a : ℝ, fl (g : EReal) = (a : EReal) := by
  obtain ⟨p, hp⟩ := pix_real g
  exact ⟨_, by unfold fl; rw [hp]; rfl⟩

theorem wHi_real (g : ℝ) : ∃ a : ℝ, wHi (g : EReal) = (a : EReal) := by
  obtain ⟨p, hp⟩ := pix_real g; obtain ⟨q, hq⟩ := fl_real g
  exact ⟨p - q, by unfold wHi; rw [hp, hq, ← EReal.coe_sub]⟩

theorem wLo_real (g : ℝ) : ∃ a : ℝ, wLo (g : EReal) = (a : EReal) := by
  obtain ⟨r1, h1⟩ := one_real; obtain ⟨q, hq⟩ := wHi_real g
  exact ⟨r1 - q, by unfold wLo; rw [h1, hq, ← EReal.coe_sub]⟩

/-- On an image of real entries and a real coordinate pair, the separable spelling and the four-corner
    spelling give the same extended real. -/
theorem sep_eq_corner (s : Fin 128 → Fin 128 → EReal) (gx gy : EReal)
    (hs : ∀ h w, ∃ r : ℝ, s h w = (r : EReal)) (hgx : ∃ r : ℝ, gx = (r : EReal)) (hgy : ∃ r : ℝ, gy = (r : EReal)) :
    sepTerm s gx gy = cornerTerm s gx gy := by
  choose S hS using hs
  obtain ⟨x, rfl⟩ := hgx
  obtain ⟨y, rfl⟩ := hgy
  obtain ⟨a0, ha0⟩ := wLo_real x
  obtain ⟨a1, ha1⟩ := wHi_real x
  obtain ⟨c0, hc0⟩ := wLo_real y
  obtain ⟨c1, hc1⟩ := wHi_real y
  have hs' : s = fun h w => ((S h w : ℝ) : EReal) := by funext h w; exact hS h w
  subst hs'
  unfold sepTerm cornerTerm taps corner
  rw [ha0, ha1, hc0, hc1]
  simp only [tap_coe, ← EReal.coe_add, ← EReal.coe_mul, coe_sum]
  exact congrArg _ (real_law S (lo (y : EReal)) (hi (y : EReal)) (lo (x : EReal)) (hi (x : EReal)) a0 a1 c0 c1)

end GridSample

end
-- ==== Proof.RefArray.lean ====
/-
  The reference's whole result array, on finite arguments, is the separable sampling function of the two
  argument arrays: entry by entry the four-corner spelling it computes is the separable spelling.
-/
import proofs.«155408_j54039278519070_1_alg».proof.Proof.RefRead
import proofs.«155408_j54039278519070_1_alg».proof.Proof.RefCorners
import proofs.«155408_j54039278519070_1_alg».proof.Proof.SampleLaw
import proofs.«155408_j54039278519070_1_alg».proof.Proof.SampleArray

noncomputable section

namespace Cert.ReferenceIdeal.RefValue

open Idealize.ShloMosaic Idealize.ShloMosaic.ValueIdx Cert.ReferenceIdeal

/-- On arrays of real entries the reference's result is `GridSample.arrSep` of them. -/
theorem ref_eq (a0 : FVec Ideal S8x128x128x128 .f32) (a1 : FVec Ideal S8x128x128x2 .f32)
    (h0 : ∀ i, ∃ r : ℝ, a0 i = (r : EReal)) (h1 : ∀ i, ∃ r : ℝ, a1 i = (r : EReal)) :
    Cert.ReferenceIdeal.Read.val_main_v174 (F := Ideal) a0 a1 = GridSample.arrSep a0 a1 := by
  funext y
  obtain ⟨b, c, ho, wo, rfl⟩ : ∃ (b : Fin 8) (c ho wo : Fin 128), y = ix4 b c ho wo :=
    ⟨y 0, y 1, y 2, y 3, eq_ix4 y⟩
  rw [ref_apply]
  exact (GridSample.sep_eq_corner _ _ _ (fun h w => h0 _) (h1 _) (h1 _)).symm

end Cert.ReferenceIdeal.RefValue

end
-- ==== Proof.FiniteInputs.lean ====
/-
  The precondition read entry by entry: every entry of both argument arrays is a real number.
-/
import proofs.«155408_j54039278519070_1_alg».proof.Pre_finite_inputs
import proofs.«155408_j54039278519070_1_alg».proof.Proof.Gen.Pre_finite_inputs
import Idealize.ShloMosaic.PureOps.Ideal
import Idealize.ShloMosaic.Lib.ReduceAll

noncomputable section

namespace Cert.Pre_finite_inputs.Finite

open Idealize.ShloMosaic Cert.Pre_finite_inputs

/-- The scalar shape has one index. -/
instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max x (-x) is below +∞ is a real. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The comparison |x| < +∞ at one entry, all ones, says the entry is a real. -/
theorem real_of_cmp (x : EReal)
    (h : Ideal.cmp .olt (max x (-x)) (Ideal.ofBits .f32 0x7F800000#32) = 1#1) : ∃ r : ℝ, x = (r : EReal) := by
  rw [inf_word] at h
  -- the comparison is the 0/1 word of the decided inequality
  have h' : BitVec.ofBool (decide (max x (-x) < (⊤ : EReal))) = 1#1 := h
  have hlt : max x (-x) < (⊤ : EReal) := by
    by_contra hn
    rw [decide_eq_false hn] at h'
    exact absurd h' (by decide)
  exact real_of_abs_lt_top x hlt

/-- If the finiteness predicate is all ones on two arrays of extended reals, every entry of each is a real. -/
theorem finite_of_pre (x0 : FVec Ideal S8x128x128x128 .f32) (x1 : FVec Ideal S8x128x128x2 .f32)
    (h : Cert.Pre_finite_inputs.fn (F := Ideal) x0 x1 = fun _ => 1#1) :
    (∀ i, ∃ r : ℝ, x0 i = (r : EReal)) ∧ (∀ i, ∃ r : ℝ, x1 i = (r : EReal)) := by
  -- the predicate at the scalar shape's one index: the conjunction of the two reductions by "and"
  have h0 := congrFun h (fun a => a.elim0)
  dsimp only [Cert.Pre_finite_inputs.fn] at h0
  obtain ⟨ha, hb⟩ := IntOp.andi_eq_one.1 h0
  constructor
  · intro i
    -- a reduction by "and" over all axes that is 1 had a 1 at every entry: |x0 i| < +∞
    have hi := Host.reduce_andi_all _ _ _ _ _ ha i
    exact real_of_cmp (x0 i) hi
  · intro i
    have hi := Host.reduce_andi_all _ _ _ _ _ hb i
    exact real_of_cmp (x1 i) hi

end Cert.Pre_finite_inputs.Finite

end
-- ==== Proof.lean ====
/-
  Bilinear sampling of a batch of 128-channel 128 x 128 images at a batch of normalized coordinate grids
  (corners aligned, zero padding): the kernel against its reference, over the extended reals.

  The reference reads, for every output pixel, the image at the four neighbours of the pixel's coordinate pair,
  clipped into the image, masks the corners that were out of range, and adds the four weighted corners. The kernel
  never gathers: for each output row it builds from the row's x-coordinates a 128 x 128 matrix of column taps
  (a neighbour's weight where the row index equals the neighbour, so an out-of-range neighbour has no entry),
  multiplies the flattened image by it, and contracts the product with the row taps built from the y-coordinates.
  Both are the same function of the two argument arrays wherever their entries are real numbers, which the
  precondition says: the double contraction with two taps per axis distributes into the four corners
  (Proof/SampleLaw.lean). Per grid point the kernel's sixteen stored slabs are one function of the block index
  (Proof/KernelBlock.lean over the row function read at an index, Proof/RowAtIndex.lean); the blocks tile the
  result array (Proof/KernelArray.lean); the reference's stages are read at an index one by one
  (Proof/RefCorners.lean, its gathers by Proof/GatherRead.lean); finiteness of every entry is read off the
  precondition (Proof/FiniteInputs.lean).

  The three frames are the programs' runs with the values forgotten; the idealization rewrote nothing, so there is
  nothing to preserve.
-/
import proofs.«155408_j54039278519070_1_alg».proof.Defs
import proofs.«155408_j54039278519070_1_alg».proof.Proof.Gen.Kernel
import proofs.«155408_j54039278519070_1_alg».proof.Proof.Gen.Kernel.Skeleton
import proofs.«155408_j54039278519070_1_alg».proof.Proof.Gen.Kernel.Launch
import proofs.«155408_j54039278519070_1_alg».proof.Proof.Gen.Kernel.Points
import proofs.«155408_j54039278519070_1_alg».proof.Proof.Gen.Kernel.Frame
import proofs.«155408_j54039278519070_1_alg».proof.Proof.Gen.KernelIdeal
import proofs.«155408_j54039278519070_1_alg».proof.Proof.Gen.KernelIdeal.Skeleton
import proofs.«155408_j54039278519070_1_alg».proof.Proof.Gen.KernelIdeal.Launch
import proofs.«155408_j54039278519070_1_alg».proof.Proof.Gen.KernelIdeal.Points
import proofs.«155408_j54039278519070_1_alg».proof.Proof.Gen.KernelIdeal.Frame
import proofs.«155408_j54039278519070_1_alg».proof.Proof.Gen.KernelIdeal.Value
import proofs.«155408_j54039278519070_1_alg».proof.Proof.Gen.ReferenceIdeal
import proofs.«155408_j54039278519070_1_alg».proof.Proof.RefRun
import proofs.«155408_j54039278519070_1_alg».proof.Proof.RefRead
import proofs.«155408_j54039278519070_1_alg».proof.Proof.Gen.Pre_finite_inputs
import Idealize.ShloMosaic.Adequacy
import Idealize.ShloMosaic.Init

import proofs.«155408_j54039278519070_1_alg».proof.Proof.KernelArray
import proofs.«155408_j54039278519070_1_alg».proof.Proof.RefArray
import proofs.«155408_j54039278519070_1_alg».proof.Proof.FiniteInputs

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the separable sampling function of the (agreeing, finite) argument arrays. -/
theorem algebraic : Cert.algebraic_KernelIdeal_ReferenceIdeal := by
  intro m ρ m' ρ' hpre hagree
  refine ⟨_, Cert.KernelIdeal.ArrayValue.kernel_run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v174_eq, (hagree c).1, (hagree c).2]
  obtain ⟨h0, h1⟩ := Cert.Pre_finite_inputs.Finite.finite_of_pre _ _ (hpre c)
  exact Cert.ReferenceIdeal.RefValue.ref_eq _ _ h0 h1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
